-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S262144 : Shape := ⟨1, ![262144]⟩
abbrev S256x64 : Shape := ⟨2, ![256, 64]⟩
abbrev S64 : Shape := ⟨1, ![64]⟩
abbrev S64x1 : Shape := ⟨2, ![64, 1]⟩
abbrev S1 : Shape := ⟨1, ![1]⟩
abbrev S2x262144 : Shape := ⟨2, ![2, 262144]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S262144 : S_.BroadcastsInDim S262144 (![] : Fin 0 → Fin S262144.rank)
  reducesTo_S262144_S_d0 : S262144.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S64x1 .f32) (main_arg6 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8192x128 .f32) (main_arg1 : FVec F S8192x8192 .f32) (main_arg2 : FVec F S262144 .f32) (main_arg3 : FVec F S256x64 .f32) (main_arg4 : FVec F S64 .f32) (main_arg5 : FVec F S64x1 .f32) (main_arg6 : FVec F S1 .f32) (main_arg7 : IVec S2x262144 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S262144 .f32 := Host.absf main_arg2
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_arg6 main_v13 main_v16
-- ==== Kernel.lean ====
abbrev S8192x128 : Shape := ⟨2, ![8192, 128]⟩
abbrev S8192x8192 : Shape := ⟨2, ![8192, 8192]⟩
abbrev S262144 : Shape := ⟨1, ![262144]⟩
abbrev S256x64 : Shape := ⟨2, ![256, 64]⟩
abbrev S64 : Shape := ⟨1, ![64]⟩
abbrev S64x1 : Shape := ⟨2, ![64, 1]⟩
abbrev S1 : Shape := ⟨1, ![1]⟩
abbrev S2x262144 : Shape := ⟨2, ![2, 262144]⟩
abbrev S1x262144 : Shape := ⟨2, ![1, 262144]⟩
abbrev S_ : Shape := ⟨0, ![]⟩
abbrev S262144x1 : Shape := ⟨2, ![262144, 1]⟩
abbrev S262144x128 : Shape := ⟨2, ![262144, 128]⟩
abbrev S262144x256 : Shape := ⟨2, ![262144, 256]⟩
abbrev S8192x256 : Shape := ⟨2, ![8192, 256]⟩
abbrev S8192 : Shape := ⟨1, ![8192]⟩
abbrev S8192x64 : Shape := ⟨2, ![8192, 64]⟩
abbrev S1x64 : Shape := ⟨2, ![1, 64]⟩
abbrev S8192x1 : Shape := ⟨2, ![8192, 1]⟩
abbrev S1x1 : Shape := ⟨2, ![1, 1]⟩
abbrev S262144x2 : Shape := ⟨2, ![262144, 2]⟩
abbrev S1024x1024 : Shape := ⟨2, ![1024, 1024]⟩

abbrev nBuf : Space → Nat
  | .hbm => 53
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S262144, .f32⟩
  | .hbm, ⟨3, _⟩ => ⟨S256x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S2x262144, .i32⟩
  | .hbm, ⟨8, _⟩ => ⟨S1x262144, .i32⟩
  | .hbm, ⟨9, _⟩ => ⟨S262144, .i32⟩
  | .hbm, ⟨10, _⟩ => ⟨S1x262144, .i32⟩
  | .hbm, ⟨11, _⟩ => ⟨S262144, .i32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S262144x128, .f32⟩
  | .hbm, ⟨21, _⟩ => ⟨S_, .i32⟩
  | .hbm, ⟨22, _⟩ => ⟨S262144, .i32⟩
  | .hbm, ⟨23, _⟩ => ⟨S262144, .i1⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S262144, .i32⟩
  | .hbm, ⟨28, _⟩ => ⟨S262144x1, .i32⟩
  | .hbm, ⟨29, _⟩ => ⟨S262144x128, .f32⟩
  | .hbm, ⟨30, _⟩ => ⟨S262144x256, .f32⟩
  | .hbm, ⟨31, _⟩ => ⟨S262144, .f32⟩
  | .hbm, ⟨32, _⟩ => ⟨S_, .f32⟩
  | .hbm, ⟨33, _⟩ => ⟨S8192x8192, .f32⟩
  | .hbm, ⟨34, _⟩ => ⟨S_, .i32⟩
  | .hbm, ⟨35, _⟩ => ⟨S262144, .i32⟩
  | .hbm, ⟨36, _⟩ => ⟨S262144, .i1⟩
  | .hbm, ⟨37, _⟩ => ⟨S_, .i32⟩
  | .hbm, ⟨38, _⟩ => ⟨S262144, .i32⟩
  | .hbm, ⟨39, _⟩ => ⟨S262144, .i32⟩
  | .hbm, ⟨40, _⟩ => ⟨S262144, .i32⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S262144, .i32⟩
  | .hbm, ⟨48, _⟩ => ⟨S262144x1, .i32⟩
  | .hbm, ⟨49, _⟩ => ⟨S262144x1, .i32⟩
  | .hbm, ⟨50, _⟩ => ⟨S262144x2, .i32⟩
  | .hbm, ⟨51, _⟩ => ⟨S8192x8192, .f32⟩
  | .hbm, ⟨52, _⟩ => ⟨S8192x8192, .f32⟩
  | .local _ .vmem, ⟨0, _⟩ => ⟨S8192x256, .f32⟩
  | .local _ .vmem, ⟨1, _⟩ => ⟨S8192x256, .f32⟩
  | .local _ .vmem, ⟨2, _⟩ => ⟨S8192, .f32⟩
  | .local _ .vmem, ⟨3, _⟩ => ⟨S8192, .f32⟩
  | .local _ .vmem, ⟨4, _⟩ => ⟨S256x64, .f32⟩
  | .local _ .vmem, ⟨5, _⟩ => ⟨S64, .f32⟩
  | .local _ .vmem, ⟨6, _⟩ => ⟨S64x1, .f32⟩
  | .local _ .vmem, ⟨7, _⟩ => ⟨S1, .f32⟩
  | .local _ .vmem, ⟨8, _⟩ => ⟨S8192, .f32⟩
  | .local _ .vmem, ⟨9, _⟩ => ⟨S8192, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x128_S262144x128_S262144x256_d1 : Shape.Concatenates [S262144x128, S262144x128] S262144x256 1
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S8192x1 : S1x1.Broadcasts S8192x1
  shapeCasts_S8192x1_S8192 : S8192x1.ShapeCasts S8192
  inb_S8192_S8192_0 : ∀ a, (![0] : Fin 1 → Nat) a + S8192.size a ≤ S8192.size a
  h_S8192 : 0 < S8192.numel
  bcast_S_S8192x8192 : S_.BroadcastsInDim S8192x8192 (![] : Fin 0 → Fin S8192x8192.rank)
  concatenates_S262144x1_S262144x1_S262144x2_d1 : Shape.Concatenates [S262144x1, S262144x1] S262144x2 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  gather_S8192x128_S262144x1_S262144x128_1_0_n_n_0_1_1128_wf : GatherDims.WF S8192x128 S262144x1 S262144x128 [1] [0] [] [0] [] 1 ![1, 128]
  dot_S8192x256_S256x64_S8192x64_1_0_0_1_n_n_wf : DotDims.WF S8192x256 S256x64 S8192x64 [1] [0] [0] [1] [] []
  dot_S8192x64_S64x1_S8192x1_1_0_0_1_n_n_wf : DotDims.WF S8192x64 S64x1 S8192x1 [1] [0] [0] [1] [] []
  scatter_S8192x8192_S262144x2_S262144_n_01_01_1_wf : ScatterDims.WF S8192x8192 S262144x2 S262144 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S262144x256.size a
  hwx0_0 : ∀ i : grid0.Coords, EltTy.bits .f32 = 32 ∨ (Rect.block (s := S262144x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S262144.size a
  hwx0_1 : ∀ i : grid0.Coords, EltTy.bits .f32 = 32 ∨ (Rect.block (s := S262144) S8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192.size a ≤ S262144.size a
  hwx0_6 : ∀ i : grid0.Coords, EltTy.bits .f32 = 32 ∨ (Rect.block (s := S262144) S8192.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .f32 = 32 ∨ (Rect.block (s := S8192x8192) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .f32 = 32 ∨ (Rect.block (s := S8192x8192) S1024x1024.size (cc1_transform_3 i) (hinb1_3 i)).WholeWords (EltTy.packing .f32)

variable [Facts₀]

def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf

abbrev win0_0 : Pipeline.Window sig grid0 :=
  Pipeline.Window.ofSpec (Memref.whole main_v18) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S8192.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S262144 : Shape := ⟨1, ![262144]⟩
abbrev S256x64 : Shape := ⟨2, ![256, 64]⟩
abbrev S64 : Shape := ⟨1, ![64]⟩
abbrev S64x1 : Shape := ⟨2, ![64, 1]⟩
abbrev S1 : Shape := ⟨1, ![1]⟩
abbrev S2x262144 : Shape := ⟨2, ![2, 262144]⟩
abbrev S1x262144 : Shape := ⟨2, ![1, 262144]⟩
abbrev S_ : Shape := ⟨0, ![]⟩
abbrev S262144x1 : Shape := ⟨2, ![262144, 1]⟩
abbrev S262144x128 : Shape := ⟨2, ![262144, 128]⟩
abbrev S262144x256 : Shape := ⟨2, ![262144, 256]⟩
abbrev S262144x64 : Shape := ⟨2, ![262144, 64]⟩
abbrev S1x64 : Shape := ⟨2, ![1, 64]⟩
abbrev S1x1 : Shape := ⟨2, ![1, 1]⟩
abbrev S262144x2 : Shape := ⟨2, ![262144, 2]⟩

abbrev nBuf : Space → Nat
  | .hbm => 82
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S262144, .f32⟩
  | .hbm, ⟨3, _⟩ => ⟨S256x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S2x262144, .i32⟩
  | .hbm, ⟨8, _⟩ => ⟨S1x262144, .i32⟩
  | .hbm, ⟨9, _⟩ => ⟨S262144, .i32⟩
  | .hbm, ⟨10, _⟩ => ⟨S1x262144, .i32⟩
  | .hbm, ⟨11, _⟩ => ⟨S262144, .i32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S262144x128, .f32⟩
  | .hbm, ⟨21, _⟩ => ⟨S_, .i32⟩
  | .hbm, ⟨22, _⟩ => ⟨S262144, .i32⟩
  | .hbm, ⟨23, _⟩ => ⟨S262144, .i1⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S262144, .i32⟩
  | .hbm, ⟨28, _⟩ => ⟨S262144x1, .i32⟩
  | .hbm, ⟨29, _⟩ => ⟨S262144x128, .f32⟩
  | .hbm, ⟨30, _⟩ => ⟨S262144x256, .f32⟩
  | .hbm, ⟨31, _⟩ => ⟨S262144x64, .f32⟩
  | .hbm, ⟨32, _⟩ => ⟨S1x64, .f32⟩
  | .hbm, ⟨33, _⟩ => ⟨S262144x64, .f32⟩
  | .hbm, ⟨34, _⟩ => ⟨S262144x64, .f32⟩
  | .hbm, ⟨35, _⟩ => ⟨S_, .f32⟩
  | .hbm, ⟨36, _⟩ => ⟨S262144x64, .f32⟩
  | .hbm, ⟨37, _⟩ => ⟨S262144x64, .f32⟩
  | .hbm, ⟨38, _⟩ => ⟨S262144x1, .f32⟩
  | .hbm, ⟨39, _⟩ => ⟨S1x1, .f32⟩
  | .hbm, ⟨40, _⟩ => ⟨S262144x1, .f32⟩
  | .hbm, ⟨41, _⟩ => ⟨S262144x1, .f32⟩
  | .hbm, ⟨42, _⟩ => ⟨S262144, .f32⟩
  | .hbm, ⟨43, _⟩ => ⟨S262144, .f32⟩
  | .hbm, ⟨44, _⟩ => ⟨S262144, .f32⟩
  | .hbm, ⟨45, _⟩ => ⟨S262144, .f32⟩
  | .hbm, ⟨46, _⟩ => ⟨S262144, .f32⟩
  | .hbm, ⟨47, _⟩ => ⟨S262144, .f32⟩
  | .hbm, ⟨48, _⟩ => ⟨S262144, .f32⟩
  | .hbm, ⟨49, _⟩ => ⟨S262144, .f32⟩
  | .hbm, ⟨50, _⟩ => ⟨S_, .f32⟩
  | .hbm, ⟨51, _⟩ => ⟨S262144, .f32⟩
  | .hbm, ⟨52, _⟩ => ⟨S262144, .f32⟩
  | .hbm, ⟨53, _⟩ => ⟨S_, .f32⟩
  | .hbm, ⟨54, _⟩ => ⟨S262144, .f32⟩
  | .hbm, ⟨55, _⟩ => ⟨S262144, .f32⟩
  | .hbm, ⟨56, _⟩ => ⟨S_, .f32⟩
  | .hbm, ⟨57, _⟩ => ⟨S8192x8192, .f32⟩
  | .hbm, ⟨58, _⟩ => ⟨S_, .i32⟩
  | .hbm, ⟨59, _⟩ => ⟨S262144, .i32⟩
  | .hbm, ⟨60, _⟩ => ⟨S262144, .i1⟩
  | .hbm, ⟨61, _⟩ => ⟨S_, .i32⟩
  | .hbm, ⟨62, _⟩ => ⟨S262144, .i32⟩
  | .hbm, ⟨63, _⟩ => ⟨S262144, .i32⟩
  | .hbm, ⟨64, _⟩ => ⟨S262144, .i32⟩
  | .hbm, ⟨65, _⟩ => ⟨S_, .i32⟩
  | .hbm, ⟨66, _⟩ => ⟨S262144, .i32⟩
  | .hbm, ⟨67, _⟩ => ⟨S262144, .i1⟩
  | .hbm, ⟨68, _⟩ => ⟨S_, .i32⟩
  | .hbm, ⟨69, _⟩ => ⟨S262144, .i32⟩
  | .hbm, ⟨70, _⟩ => ⟨S262144, .i32⟩
  | .hbm, ⟨71, _⟩ => ⟨S262144, .i32⟩
  | .hbm, ⟨72, _⟩ => ⟨S262144x1, .i32⟩
  | .hbm, ⟨73, _⟩ => ⟨S262144x1, .i32⟩
  | .hbm, ⟨74, _⟩ => ⟨S262144x2, .i32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_c_5 : Ref sig .tc := ⟨.hbm, 58, rfl⟩
abbrev main_v41 : Ref sig .tc := ⟨.hbm, 59, rfl⟩
abbrev main_v42 : Ref sig .tc := ⟨.hbm, 60, rfl⟩
abbrev main_c_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x128_S262144x128_S262144x256_d1 : Shape.Concatenates [S262144x128, S262144x128] S262144x256 1
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S262144 : S262144x1.ShapeCasts S262144
  bcast_S_S8192x8192 : S_.BroadcastsInDim S8192x8192 (![] : Fin 0 → Fin S8192x8192.rank)
  concatenates_S262144x1_S262144x1_S262144x2_d1 : Shape.Concatenates [S262144x1, S262144x1] S262144x2 1
  transposes_S8192x8192_S8192x8192_1_0 : S8192x8192.Transposes [1, 0] S8192x8192
  gather_S8192x128_S262144x1_S262144x128_1_0_n_n_0_1_1128_wf : GatherDims.WF S8192x128 S262144x1 S262144x128 [1] [0] [] [0] [] 1 ![1, 128]
  dot_S262144x256_S256x64_S262144x64_1_0_0_1_n_n_wf : DotDims.WF S262144x256 S256x64 S262144x64 [1] [0] [0] [1] [] []
  dot_S262144x64_S64x1_S262144x1_1_0_0_1_n_n_wf : DotDims.WF S262144x64 S64x1 S262144x1 [1] [0] [0] [1] [] []
  scatter_S8192x8192_S262144x2_S262144_n_01_01_1_wf : ScatterDims.WF S8192x8192 S262144x2 S262144 [] [0, 1] [0, 1] 1

variable [Facts₀]

def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def dot_S262144x256_S256x64_S262144x64_1_0_0_1_n_n : DotDims S262144x256 S256x64 S262144x64 where
  lhsContracting := [1]
  rhsContracting := [0]
  lhsNonContracting := [0]
  rhsNonContracting := [1]
  lhsBatch := []
  rhsBatch := []
  wf := dot_S262144x256_S256x64_S262144x64_1_0_0_1_n_n_wf
def dot_S262144x64_S64x1_S262144x1_1_0_0_1_n_n : DotDims S262144x64 S64x1 S262144x1 where
  lhsContracting := [1]
  rhsContracting := [0]
  lhsNonContracting := [0]
  rhsNonContracting := [1]
  lhsBatch := []
  rhsBatch := []
  wf := dot_S262144x64_S64x1_S262144x1_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf

class Facts : Prop extends Facts₀ where

variable [Facts]
-- ==== Proof.K.Body0.lean ====
/-
  Region 0 of @main (the edge-scoring kernel) at a parameter `V`, the core's buffer contents when the region is
  entered. For every grid point t (one block of 8192 edges): each input window's staging buffer holds block t of
  its array — the 8192 × 256 slab of edge features and the 8192 noise values move with t, the two weight matrices
  and the two biases are the whole arrays at every point —, the body stores into the output window's buffer ONE
  piece covering it, the gate `logistic (log n − log1p (0 − n) + ((relu (h·W1 + b1))·W2 + b2))` of those blocks
  (the payload `k0_pay1`), and the pipeline writes that buffer back as block t of the gate array.
  Stated for any float instance: nothing here opens an arithmetic operation.
-/
import proofs.«170812_j85040352461208_1_alg».proof.Proof.Gen.Kernel.Launch
import proofs.«170812_j85040352461208_1_alg».proof.Proof.Gen.Kernel.Skeleton
import proofs.«170812_j85040352461208_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not: where the pipeline
    skips the fetch the block index has not moved (the weights and biases are fetched once, their index constant). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev rH : Rect S8192x256 := Rect.unit (s := S8192x256) ![0, 0] S8192x256.size inb_S8192x256_S8192x256_0_0
abbrev rN : Rect S8192 := Rect.unit (s := S8192) ![0] S8192.size inb_S8192_S8192_0
abbrev rW1 : Rect S256x64 := Rect.unit (s := S256x64) ![0, 0] S256x64.size inb_S256x64_S256x64_0_0
abbrev rB1 : Rect S64 := Rect.unit (s := S64) ![0] S64.size inb_S64_S64_0
abbrev rW2 : Rect S64x1 := Rect.unit (s := S64x1) ![0, 0] S64x1.size inb_S64x1_S64x1_0_0
abbrev rB2 : Rect S1 := Rect.unit (s := S1) ![0] S1.size inb_S1_S1_0

/-- The output window's buffer after the body, from the six input blocks: one piece, the gate of the blocks. -/
def out0_6 (x0 : Vec F S8192x256 .f32) (x1 : Vec F S8192 .f32) (x2 : Vec F S256x64 .f32) (x3 : Vec F S64 .f32) (x4 : Vec F S64x1 .f32) (x5 : Vec F S1 .f32) : Vec F S8192 .f32 :=
  View.canon [⟨rN, k0_pay1 (View.ld x0 rH) (View.ld x2 rW1) (View.ld x3 rB1) (View.ld x4 rW2) (View.ld x5 rB2) (View.ld x1 rN)⟩]

/-- The one store covers the buffer. -/
theorem cover0_6 (p0 : Vec F S8192 .f32) (y : S8192.Idx) :
    ∃ pc ∈ ([⟨rN, p0⟩] : List (View.Piece (Elt F) S8192 .f32)), y ∈ pc.1.set :=
  View.cover_of_tiled [⟨rN, p0⟩] S8192.size (by rfl) y

set_option maxHeartbeats 1000000 in
/-- The body on whole staging buffers, the inputs' at contents `x0 … x5` and the output's at anything, leaves the
    inputs' as they were and the output's at `out0_6` of them. -/
theorem sound_kernel0 (c : Dev nD) (E : Set ℕ) (i : grid0.Coords) (arg1 : Memref sig .tc .vmem S8192x256 .f32) (harg1 : arg1.IsWhole) (arg2 : Memref sig .tc .vmem S8192 .f32) (harg2 : arg2.IsWhole) (arg3 : Memref sig .tc .vmem S256x64 .f32) (harg3 : arg3.IsWhole) (arg4 : Memref sig .tc .vmem S64 .f32) (harg4 : arg4.IsWhole) (arg5 : Memref sig .tc .vmem S64x1 .f32) (harg5 : arg5.IsWhole) (arg6 : Memref sig .tc .vmem S1 .f32) (harg6 : arg6.IsWhole) (arg7 : Memref sig .tc .vmem S8192 .f32) (harg7 : arg7.IsWhole)
    (x0 : Vec F S8192x256 .f32) (x1 : Vec F S8192 .f32) (x2 : Vec F S256x64 .f32) (x3 : Vec F S64 .f32) (x4 : Vec F S64x1 .f32) (x5 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__mlp_gate_kernel i arg1 harg1 arg2 harg2 arg3 harg3 arg4 harg4 arg5 harg5 arg6 harg6 arg7 harg7) K := by
  simp only [cc0__mlp_gate_kernel_eq_skeleton]; unfold cc0__mlp_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- Pipeline 0's proof data on core `c`: the arrays as the region finds them; after the body at point `t` each input's
    buffer at its block and the output's at `out0_6` of the input blocks; the scoped rest and the generator register
    untouched; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Body1.lean ====
/-
  Region 1 of @main (the symmetrising kernel) at a parameter `V`, the core's buffer contents when the region is
  entered. The grid is 8 × 8 tiles of 1024 × 1024. At tile (i, j) window 0 holds tile (i, j) of the adjacency
  matrix, window 1 tile (i, j) of the scattered mask and window 2 tile (j, i) of the SAME mask array; the body stores
  into the output window's buffer one piece covering it, `adj · (0.5 · (mask_ij + transpose mask_ji))` (the payload
  `k1_pay1`), written back as tile (i, j) of the result.
  Two input windows read one array, so the proof data holds that array at the two halves of the full share, one
  half per window; the other arrays are held whole. Stated for any float instance.
-/
import proofs.«170812_j85040352461208_1_alg».proof.Proof.Gen.Kernel.Launch
import proofs.«170812_j85040352461208_1_alg».proof.Proof.Gen.Kernel.Skeleton
import proofs.«170812_j85040352461208_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Every load and the one store take the whole 1024 × 1024 buffer. -/
abbrev rT : Rect S1024x1024 := Rect.unit (s := S1024x1024) ![0, 0] S1024x1024.size inb_S1024x1024_S1024x1024_0_0

/-- The output window's buffer after the body, from the three input tiles. -/
def out1_3 (x0 : Vec F S1024x1024 .f32) (x1 : Vec F S1024x1024 .f32) (x2 : Vec F S1024x1024 .f32) : Vec F S1024x1024 .f32 :=
  View.canon [⟨rT, k1_pay1 (View.ld x1 rT) (View.ld x2 rT) (View.ld x0 rT)⟩]

/-- The one store covers the buffer. -/
theorem cover1_3 (p0 : Vec F S1024x1024 .f32) (y : S1024x1024.Idx) :
    ∃ pc ∈ ([⟨rT, p0⟩] : List (View.Piece (Elt F) S1024x1024 .f32)), y ∈ pc.1.set :=
  View.cover_of_tiled [⟨rT, p0⟩] S1024x1024.size (by rfl) y

set_option maxHeartbeats 1000000 in
/-- The body on whole staging buffers, the inputs' at contents `x0 x1 x2` and the output's at anything, leaves the
    inputs' as they were and the output's at `out1_3` of them. -/
theorem sound_kernel1 (c : Dev nD) (E : Set ℕ) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole)
    (x0 : Vec F S1024x1024 .f32) (x1 : Vec F S1024x1024 .f32) (x2 : Vec F S1024x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__sym_mask_kernel i arg2 harg2 arg3 harg3 arg4 harg4 arg5 harg5) K := by
  simp only [cc1__sym_mask_kernel_eq_skeleton]; unfold cc1__sym_mask_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- Pipeline 1's proof data on core `c`: the arrays as the region finds them; after the body at point `t` each input's
    buffer at its block and the output's at `out1_3` of the input tiles; the scoped rest and the generator register
    untouched; nothing owed; the mask array, read by windows 1 and 2, held at the left half of the full share for
    window 1 and at the right half for window 2, the adjacency matrix whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The shares the core holds the four windows' arrays at. -/
theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Shared1.lean ====
/-
  Region 1's arrays among the core's unscoped buffers. Its four windows stand on three buffers: the adjacency matrix
  (window 0), the scattered mask (windows 1 AND 2) and the result (window 3). Held whole, the mask's buffer is the
  two halves of its full share, one per window that reads it; so the three buffers held whole at contents `V` are
  exactly the proof data's `arrays` at any per-window contents that agree with `V`, in both directions.
-/
import proofs.«170812_j85040352461208_1_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (Vd : (c : Dev nD) → (b : Ref sig .tc) → Buf (Elt F) ((c : Thread nD τ).loc b))

/-- The distinct buffers behind the four windows. -/
theorem arrs1_image : Finset.univ.image (Pipeline.arrRef spec1) = ({main_arg1, main_v34, main_v35} : Finset (Ref sig .tc)) := by decide

/-- Those three buffers, each whole at `V`. -/
theorem arrBufs1_eq (c : Dev nD) (V : (b : Ref sig .tc) → Buf (Elt F) ((c : Thread nD τ).loc b)) :
    (Pipeline.arrBufs spec1 c V : sProp 𝕄)
      = iprop((((c : Thread nD τ).loc main_arg1) ↦{fullShare} V main_arg1) ∗ (((c : Thread nD τ).loc main_v34) ↦{fullShare} V main_v34)
          ∗ (((c : Thread nD τ).loc main_v35) ↦{fullShare} V main_v35)) := by
  unfold Pipeline.arrBufs
  rw [arrs1_image, BI.bigSep_insert (by decide), BI.bigSep_insert (by decide), BI.bigSep_singleton]
  rfl

/-- The proof data's arrays, window by window: the mask's buffer at the two halves of the full share. -/
theorem arrays1_eq (c : Dev nD) (G : (w : Fin cfg1.W) → Buf (Elt F) ((cfg1.win w).arr.view.loc (c : Thread nD τ))) :
    ((dat1 Vd c).arrays G : sProp 𝕄)
      = iprop((((c : Thread nD τ).loc main_arg1) ↦{fullShare} G 0) ∗ (((c : Thread nD τ).loc main_v34) ↦{fullShare.left} G 1)
          ∗ (((c : Thread nD τ).loc main_v34) ↦{fullShare.right} G 2) ∗ (((c : Thread nD τ).loc main_v35) ↦{fullShare} G 3)) := by
  unfold Dat.arrays
  rw [bigSep_W1]
  simp only [(arr_whole1 0).set_eq_univ, (arr_whole1 1).set_eq_univ, (arr_whole1 2).set_eq_univ, (arr_whole1 3).set_eq_univ,
    share1_0, share1_1, share1_2, share1_3]

/-- ENTRY: the three buffers held whole at `V` make the proof data's arrays at contents that agree with `V`: the mask's
    buffer is split into the two halves of its share. -/
theorem arrays1_of_arrBufs (c : Dev nD) (V : (b : Ref sig .tc) → Buf (Elt F) ((c : Thread nD τ).loc b))
    (G : (w : Fin cfg1.W) → Buf (Elt F) ((cfg1.win w).arr.view.loc (c : Thread nD τ)))
    (h0 : G 0 = V main_arg1) (h1 : G 1 = V main_v34) (h2 : G 2 = V main_v34) (h3 : G 3 = V main_v35) :
    (Pipeline.arrBufs spec1 c V : sProp 𝕄) ⊢ (dat1 Vd c).arrays G := by
  rw [arrBufs1_eq, arrays1_eq, h0, h1, h2, h3]
  iintro ⟨H0, H1, H3⟩
  ihave H12 := (pointsTo_share (PosShare.mem_left_op_right fullShare)).1 $$ H1
  icases H12 with ⟨Hl, Hr⟩
  isplitl [H0]; · iexact H0
  isplitl [Hl]; · iexact Hl
  isplitl [Hr]; · iexact Hr
  iexact H3

/-- EXIT: the proof data's arrays, at contents that agree with `V`, are the three buffers held whole at `V`: the two
    halves of the mask's buffer, at one contents, join. -/
theorem arrBufs_of_arrays1 (c : Dev nD) (V : (b : Ref sig .tc) → Buf (Elt F) ((c : Thread nD τ).loc b))
    (G : (w : Fin cfg1.W) → Buf (Elt F) ((cfg1.win w).arr.view.loc (c : Thread nD τ)))
    (h0 : G 0 = V main_arg1) (h1 : G 1 = V main_v34) (h2 : G 2 = V main_v34) (h3 : G 3 = V main_v35) :
    ((dat1 Vd c).arrays G : sProp 𝕄) ⊢ Pipeline.arrBufs spec1 c V := by
  rw [arrBufs1_eq, arrays1_eq, h0, h1, h2, h3]
  iintro ⟨H0, Hl, Hr, H3⟩
  isplitl [H0]; · iexact H0
  isplitl [Hl Hr]
  · iapply (pointsTo_share (PosShare.mem_left_op_right fullShare)).2
    isplitl [Hl]; · iexact Hl
    iexact Hr
  iexact H3

end Cert.Kernel.Hand

end
-- ==== Proof.K.Run.lean ====
/-
  The run of @main: a stretch of host operations (the edge gather), region 0 (the gate kernel), a second stretch
  (the scatter-add of the gates into the mask), region 1 (the symmetrising kernel). The core's unscoped buffers are
  followed through the four items as a valuation: the launch contents, then each host stretch's operations applied,
  then each region's arrays at what its write-backs leave. Every weakly fair execution terminates, and the final
  memory holds every unscoped buffer at the last valuation — from which the arguments are read back to their launch
  contents (no item writes one) and the result to what region 1 leaves. Stated for any float instance.
-/
import proofs.«170812_j85040352461208_1_alg».proof.Proof.K.Body0
import proofs.«170812_j85040352461208_1_alg».proof.Proof.K.Body1
import proofs.«170812_j85040352461208_1_alg».proof.Proof.K.Shared1
import proofs.«170812_j85040352461208_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => m ((c : Dev nD), b)
/-- After the first host stretch (region 0's entry). -/
abbrev B1 : Dev nD → Valuation τ sig (Elt F) := fun c => StableHlo.after hostOps0 (B0 m c)
abbrev VB1 : (c : Dev nD) → (b : Ref sig .tc) → Buf (Elt F) ((c : Thread nD τ).loc b) := fun c b => B1 m c b
/-- At region 0's exit: its arrays at what the pipeline leaves, every other buffer as entered. -/
def B2 (c : Dev nD) : Valuation τ sig (Elt F) :=
  Pipeline.withArrays spec0 c (B1 m c) fun w => (dat0 (VB1 m) c).arrAt w cfg0.N
theorem B2_arr (c : Dev nD) (w : Fin cfg0.W) :
    B2 m c (Proc.devRef .tc (Pipeline.arrRef spec0 w)) = (dat0 (VB1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev VB2 : (c : Dev nD) → (b : Ref sig .tc) → Buf (Elt F) ((c : Thread nD τ).loc b) := fun c b => B2 m c b
theorem hF0 (c : Dev nD) (w : Fin cfg0.W) : (dat0 (VB1 m) c).arrAt w cfg0.N = VB2 m c (Pipeline.arrRef spec0 w) :=
  (B2_arr m c w).symm
theorem hrest0 (c : Dev nD) : ∀ b, b ∉ Finset.univ.image (Pipeline.arrRef spec0) → VB2 m c b = VB1 m c b :=
  fun b hb => B2_of_ne m c b fun w e => hb (Finset.mem_image.mpr ⟨w, Finset.mem_univ _, e⟩)

/-- After the second host stretch (region 1's entry). -/
abbrev B3 : Dev nD → Valuation τ sig (Elt F) := fun c => StableHlo.after hostOps1 (B2 m c)
abbrev VB3 : (c : Dev nD) → (b : Ref sig .tc) → Buf (Elt F) ((c : Thread nD τ).loc b) := fun c b => B3 m c b
/-- The result array as region 1 leaves it. -/
def res1 (c : Dev nD) : Buf (Elt F) ((c : Thread nD τ).loc main_v35) := (dat1 (VB3 m) c).arrAt 3 cfg1.N
/-- At region 1's exit: the result at what the pipeline leaves, every other buffer as entered (the region's other
    arrays are inputs, never written). -/
def B4 (c : Dev nD) : Valuation τ sig (Elt F) := Function.update (B3 m c) main_v35 (res1 m c)
abbrev VB4 : (c : Dev nD) → (b : Ref sig .tc) → Buf (Elt F) ((c : Thread nD τ).loc b) := fun c b => B4 m c b
theorem B4_res (c : Dev nD) : B4 m c (Proc.devRef .tc main_v35) = res1 m c := by
  unfold B4; exact Function.update_self ..
theorem B4_of_ne (c : Dev nD) (r : Ref sig .tc) (h : r ≠ main_v35) : B4 m c (Proc.devRef .tc r) = B3 m c (Proc.devRef .tc r) := by
  unfold B4
  exact Function.update_of_ne (StableHlo.devRef_ne_of_ne h : (Proc.devRef .tc r : DevRef τ sig) ≠ Proc.devRef .tc main_v35) _ _

/-! ### The arguments end as launched -/

theorem B4_main_arg0 (c : Dev nD) : B4 m c (Proc.devRef .tc main_arg0) = m ((c : Thread nD τ).loc main_arg0) :=
  calc B4 m c (Proc.devRef .tc main_arg0)
    _ = B3 m c (Proc.devRef .tc main_arg0) := B4_of_ne m c main_arg0 (by decide)
    _ = B2 m c (Proc.devRef .tc main_arg0) := StableHlo.after_of_writes_sub hostOps1 _ hostOps1_writes (by decide : main_arg0 ∉ hostOps1_W)
    _ = B1 m c (Proc.devRef .tc main_arg0) := B2_of_ne m c main_arg0 (by decide)
    _ = B0 m c (Proc.devRef .tc main_arg0) := StableHlo.after_of_writes_sub hostOps0 _ hostOps0_writes (by decide : main_arg0 ∉ hostOps0_W)
    _ = m ((c : Thread nD τ).loc main_arg0) := rfl

theorem B4_main_arg1 (c : Dev nD) : B4 m c (Proc.devRef .tc main_arg1) = m ((c : Thread nD τ).loc main_arg1) :=
  calc B4 m c (Proc.devRef .tc main_arg1)
    _ = B3 m c (Proc.devRef .tc main_arg1) := B4_of_ne m c main_arg1 (by decide)
    _ = B2 m c (Proc.devRef .tc main_arg1) := StableHlo.after_of_writes_sub hostOps1 _ hostOps1_writes (by decide : main_arg1 ∉ hostOps1_W)
    _ = B1 m c (Proc.devRef .tc main_arg1) := B2_of_ne m c main_arg1 (by decide)
    _ = B0 m c (Proc.devRef .tc main_arg1) := StableHlo.after_of_writes_sub hostOps0 _ hostOps0_writes (by decide : main_arg1 ∉ hostOps0_W)
    _ = m ((c : Thread nD τ).loc main_arg1) := rfl

theorem B4_main_arg2 (c : Dev nD) : B4 m c (Proc.devRef .tc main_arg2) = m ((c : Thread nD τ).loc main_arg2) :=
  calc B4 m c (Proc.devRef .tc main_arg2)
    _ = B3 m c (Proc.devRef .tc main_arg2) := B4_of_ne m c main_arg2 (by decide)
    _ = B2 m c (Proc.devRef .tc main_arg2) := StableHlo.after_of_writes_sub hostOps1 _ hostOps1_writes (by decide : main_arg2 ∉ hostOps1_W)
    _ = B1 m c (Proc.devRef .tc main_arg2) := (B2_arr m c 1).trans (((dat0 (VB1 m) c).arrAt_in 1 rfl _).trans (A_eq0 (VB1 m) c 1))
    _ = B0 m c (Proc.devRef .tc main_arg2) := StableHlo.after_of_writes_sub hostOps0 _ hostOps0_writes (by decide : main_arg2 ∉ hostOps0_W)
    _ = m ((c : Thread nD τ).loc main_arg2) := rfl

theorem B4_main_arg3 (c : Dev nD) : B4 m c (Proc.devRef .tc main_arg3) = m ((c : Thread nD τ).loc main_arg3) :=
  calc B4 m c (Proc.devRef .tc main_arg3)
    _ = B3 m c (Proc.devRef .tc main_arg3) := B4_of_ne m c main_arg3 (by decide)
    _ = B2 m c (Proc.devRef .tc main_arg3) := StableHlo.after_of_writes_sub hostOps1 _ hostOps1_writes (by decide : main_arg3 ∉ hostOps1_W)
    _ = B1 m c (Proc.devRef .tc main_arg3) := (B2_arr m c 2).trans (((dat0 (VB1 m) c).arrAt_in 2 rfl _).trans (A_eq0 (VB1 m) c 2))
    _ = B0 m c (Proc.devRef .tc main_arg3) := StableHlo.after_of_writes_sub hostOps0 _ hostOps0_writes (by decide : main_arg3 ∉ hostOps0_W)
    _ = m ((c : Thread nD τ).loc main_arg3) := rfl

theorem B4_main_arg4 (c : Dev nD) : B4 m c (Proc.devRef .tc main_arg4) = m ((c : Thread nD τ).loc main_arg4) :=
  calc B4 m c (Proc.devRef .tc main_arg4)
    _ = B3 m c (Proc.devRef .tc main_arg4) := B4_of_ne m c main_arg4 (by decide)
    _ = B2 m c (Proc.devRef .tc main_arg4) := StableHlo.after_of_writes_sub hostOps1 _ hostOps1_writes (by decide : main_arg4 ∉ hostOps1_W)
    _ = B1 m c (Proc.devRef .tc main_arg4) := (B2_arr m c 3).trans (((dat0 (VB1 m) c).arrAt_in 3 rfl _).trans (A_eq0 (VB1 m) c 3))
    _ = B0 m c (Proc.devRef .tc main_arg4) := StableHlo.after_of_writes_sub hostOps0 _ hostOps0_writes (by decide : main_arg4 ∉ hostOps0_W)
    _ = m ((c : Thread nD τ).loc main_arg4) := rfl

theorem B4_main_arg5 (c : Dev nD) : B4 m c (Proc.devRef .tc main_arg5) = m ((c : Thread nD τ).loc main_arg5) :=
  calc B4 m c (Proc.devRef .tc main_arg5)
    _ = B3 m c (Proc.devRef .tc main_arg5) := B4_of_ne m c main_arg5 (by decide)
    _ = B2 m c (Proc.devRef .tc main_arg5) := StableHlo.after_of_writes_sub hostOps1 _ hostOps1_writes (by decide : main_arg5 ∉ hostOps1_W)
    _ = B1 m c (Proc.devRef .tc main_arg5) := (B2_arr m c 4).trans (((dat0 (VB1 m) c).arrAt_in 4 rfl _).trans (A_eq0 (VB1 m) c 4))
    _ = B0 m c (Proc.devRef .tc main_arg5) := StableHlo.after_of_writes_sub hostOps0 _ hostOps0_writes (by decide : main_arg5 ∉ hostOps0_W)
    _ = m ((c : Thread nD τ).loc main_arg5) := rfl

theorem B4_main_arg6 (c : Dev nD) : B4 m c (Proc.devRef .tc main_arg6) = m ((c : Thread nD τ).loc main_arg6) :=
  calc B4 m c (Proc.devRef .tc main_arg6)
    _ = B3 m c (Proc.devRef .tc main_arg6) := B4_of_ne m c main_arg6 (by decide)
    _ = B2 m c (Proc.devRef .tc main_arg6) := StableHlo.after_of_writes_sub hostOps1 _ hostOps1_writes (by decide : main_arg6 ∉ hostOps1_W)
    _ = B1 m c (Proc.devRef .tc main_arg6) := (B2_arr m c 5).trans (((dat0 (VB1 m) c).arrAt_in 5 rfl _).trans (A_eq0 (VB1 m) c 5))
    _ = B0 m c (Proc.devRef .tc main_arg6) := StableHlo.after_of_writes_sub hostOps0 _ hostOps0_writes (by decide : main_arg6 ∉ hostOps0_W)
    _ = m ((c : Thread nD τ).loc main_arg6) := rfl

theorem B4_main_arg7 (c : Dev nD) : B4 m c (Proc.devRef .tc main_arg7) = m ((c : Thread nD τ).loc main_arg7) :=
  calc B4 m c (Proc.devRef .tc main_arg7)
    _ = B3 m c (Proc.devRef .tc main_arg7) := B4_of_ne m c main_arg7 (by decide)
    _ = B2 m c (Proc.devRef .tc main_arg7) := StableHlo.after_of_writes_sub hostOps1 _ hostOps1_writes (by decide : main_arg7 ∉ hostOps1_W)
    _ = B1 m c (Proc.devRef .tc main_arg7) := B2_of_ne m c main_arg7 (by decide)
    _ = B0 m c (Proc.devRef .tc main_arg7) := StableHlo.after_of_writes_sub hostOps0 _ hostOps0_writes (by decide : main_arg7 ∉ hostOps0_W)
    _ = m ((c : Thread nD τ).loc main_arg7) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VB1 m) c
  | ⟨1, _⟩ => fun c => dat1 (VB3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the register at some state. -/
abbrev Tₙ (c : Dev nD) : sProp 𝕄 := iprop(StableHlo.held (c : Thread nD τ) (Pipeline.ucRefs τ sig) (B4 m c) ∗ ∃ r, prngReg c r)

/-! ## Region 1's arrays out of the unscoped buffers and back -/

/-- ENTRY: the unscoped buffers at region 1's entry contents are its arrays (the mask's buffer split into the two
    halves its two windows hold) and the rest. -/
theorem entry1 (c : Dev nD) :
    (unscopedBufs c (VB3 m c) : sProp 𝕄) ⊢ iprop((dat1 (VB3 m) c).arrays (dat1 (VB3 m) c).A ∗ Pipeline.unscopedRest spec1 c (VB3 m c)) := by
  rw [Pipeline.unscopedBufs_split₀ cfgs 1 winFacts₀1.arr_unscoped c (VB3 m c)]
  exact sep_mono (arrays1_of_arrBufs (VB3 m) c (VB3 m c) _ (A_eq1 (VB3 m) c 0) (A_eq1 (VB3 m) c 1) (A_eq1 (VB3 m) c 2) (A_eq1 (VB3 m) c 3)) .rfl

/-- EXIT: region 1's arrays at what the pipeline leaves (the inputs as entered, the result written) and the rest are
    the unscoped buffers at the exit contents. -/
theorem exit1 (c : Dev nD) :
    iprop((dat1 (VB3 m) c).arrays ((dat1 (VB3 m) c).arrAt · cfg1.N) ∗ Pipeline.unscopedRest spec1 c (VB3 m c)) ⊢ (unscopedBufs c (VB4 m c) : sProp 𝕄) := by
  rw [Pipeline.unscopedBufs_split₀ cfgs 1 winFacts₀1.arr_unscoped c (VB4 m c)]
  refine sep_mono (arrBufs_of_arrays1 (VB3 m) c (VB4 m c) _ ?_ ?_ ?_ ?_) (Entails.of_eq ?_)
  · exact (((dat1 (VB3 m) c).arrAt_in 0 rfl _).trans (A_eq1 (VB3 m) c 0)).trans (B4_of_ne m c main_arg1 (by decide)).symm
  · exact (((dat1 (VB3 m) c).arrAt_in 1 rfl _).trans (A_eq1 (VB3 m) c 1)).trans (B4_of_ne m c main_v34 (by decide)).symm
  · exact (((dat1 (VB3 m) c).arrAt_in 2 rfl _).trans (A_eq1 (VB3 m) c 2)).trans (B4_of_ne m c main_v34 (by decide)).symm
  · exact (B4_res m c).symm
  · unfold Pipeline.unscopedRest
    refine bigSep_congr fun b hb => ?_
    have hne : b ≠ main_v35 := fun e => (Finset.mem_sdiff.mp hb).2 (Finset.mem_image.mpr ⟨3, Finset.mem_univ _, e ▸ rfl⟩)
    rw [show VB4 m c b = VB3 m c b from B4_of_ne m c b hne]

/-! ## The regions as segments -/

set_option backward.isDefEq.respectTransparency.types false in
/-- REGION 0 over the thread state: entered from every unscoped buffer at `B1`, left at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VB1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (VB1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VB1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VB1 m c) (VB2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `B3`, left at `B4`. Two of its input
    windows read one array, so its arrays leave the unscoped buffers and return by `entry1` / `exit1`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VB3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB3 m c)
  hentry c := by
    rw [Pipeline.ownSems0_none]
    have hsplit : (unscopedBufs c (VB3 m c) : sProp 𝕄) ⊢ iprop((pdats m 1 c).arrays (pdats m 1 c).A ∗ Pipeline.unscopedRest spec1 c (VB3 m c)) := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (VB3 m c)) ⊢ (unscopedBufs c (VB4 m c) : sProp 𝕄) := exit1 m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev mainSegs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m) ]
/-- @main IS the run of the segments. -/
theorem main_run (c : Dev nD) : main (F := F) c = Pipeline.Seg.run (mainSegs m) := (main_chain c).trans (by chain_rfl)

set_option backward.isDefEq.respectTransparency.types false in
/-- THE RUN: from any memory with zero counters every weakly fair execution of @main terminates, nothing faulting, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c),
     (h c _ (mem_uc main_arg5 (by decide))).trans (B4_main_arg5 m c),
     (h c _ (mem_uc main_arg6 (by decide))).trans (B4_main_arg6 m c),
     (h c _ (mem_uc main_arg7 (by decide))).trans (B4_main_arg7 m c)⟩)
    (run_all m ρ)

/-- THE RUN WITH THE RESULT NAMED: the result array ends at what region 1 leaves, the arguments as launched. -/
theorem run_value : θ_run defs (onTc (τ := τ) (main (F := F))) ⟨m, fun _ => 0, ρ⟩ (fun r => ∀ c : Dev nD,
      r.2.mem ((c.tc : Thread nD τ).loc main_v35) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v35 (by decide))).trans (B4_res m c),
     (h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c),
     (h c _ (mem_uc main_arg5 (by decide))).trans (B4_main_arg5 m c),
     (h c _ (mem_uc main_arg6 (by decide))).trans (B4_main_arg6 m c),
     (h c _ (mem_uc main_arg7 (by decide))).trans (B4_main_arg7 m c)⟩)
    (run_all m ρ)

end Cert.Kernel.Hand

end
-- ==== Proof.KI.Body0.lean ====
/-
  Region 0 of @main (the edge-scoring kernel) at a parameter `V`, the core's buffer contents when the region is
  entered. For every grid point t (one block of 8192 edges): each input window's staging buffer holds block t of
  its array — the 8192 × 256 slab of edge features and the 8192 noise values move with t, the two weight matrices
  and the two biases are the whole arrays at every point —, the body stores into the output window's buffer ONE
  piece covering it, the gate `logistic (log n − log1p (0 − n) + ((relu (h·W1 + b1))·W2 + b2))` of those blocks
  (the payload `k0_pay1`), and the pipeline writes that buffer back as block t of the gate array.
  Stated for any float instance: nothing here opens an arithmetic operation.
-/
import proofs.«170812_j85040352461208_1_alg».proof.Proof.Gen.KernelIdeal.Launch
import proofs.«170812_j85040352461208_1_alg».proof.Proof.Gen.KernelIdeal.Skeleton
import proofs.«170812_j85040352461208_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not: where the pipeline
    skips the fetch the block index has not moved (the weights and biases are fetched once, their index constant). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev rH : Rect S8192x256 := Rect.unit (s := S8192x256) ![0, 0] S8192x256.size inb_S8192x256_S8192x256_0_0
abbrev rN : Rect S8192 := Rect.unit (s := S8192) ![0] S8192.size inb_S8192_S8192_0
abbrev rW1 : Rect S256x64 := Rect.unit (s := S256x64) ![0, 0] S256x64.size inb_S256x64_S256x64_0_0
abbrev rB1 : Rect S64 := Rect.unit (s := S64) ![0] S64.size inb_S64_S64_0
abbrev rW2 : Rect S64x1 := Rect.unit (s := S64x1) ![0, 0] S64x1.size inb_S64x1_S64x1_0_0
abbrev rB2 : Rect S1 := Rect.unit (s := S1) ![0] S1.size inb_S1_S1_0

/-- The output window's buffer after the body, from the six input blocks: one piece, the gate of the blocks. -/
def out0_6 (x0 : Vec F S8192x256 .f32) (x1 : Vec F S8192 .f32) (x2 : Vec F S256x64 .f32) (x3 : Vec F S64 .f32) (x4 : Vec F S64x1 .f32) (x5 : Vec F S1 .f32) : Vec F S8192 .f32 :=
  View.canon [⟨rN, k0_pay1 (View.ld x0 rH) (View.ld x2 rW1) (View.ld x3 rB1) (View.ld x4 rW2) (View.ld x5 rB2) (View.ld x1 rN)⟩]

/-- The one store covers the buffer. -/
theorem cover0_6 (p0 : Vec F S8192 .f32) (y : S8192.Idx) :
    ∃ pc ∈ ([⟨rN, p0⟩] : List (View.Piece (Elt F) S8192 .f32)), y ∈ pc.1.set :=
  View.cover_of_tiled [⟨rN, p0⟩] S8192.size (by rfl) y

set_option maxHeartbeats 1000000 in
/-- The body on whole staging buffers, the inputs' at contents `x0 … x5` and the output's at anything, leaves the
    inputs' as they were and the output's at `out0_6` of them. -/
theorem sound_kernel0 (c : Dev nD) (E : Set ℕ) (i : grid0.Coords) (arg1 : Memref sig .tc .vmem S8192x256 .f32) (harg1 : arg1.IsWhole) (arg2 : Memref sig .tc .vmem S8192 .f32) (harg2 : arg2.IsWhole) (arg3 : Memref sig .tc .vmem S256x64 .f32) (harg3 : arg3.IsWhole) (arg4 : Memref sig .tc .vmem S64 .f32) (harg4 : arg4.IsWhole) (arg5 : Memref sig .tc .vmem S64x1 .f32) (harg5 : arg5.IsWhole) (arg6 : Memref sig .tc .vmem S1 .f32) (harg6 : arg6.IsWhole) (arg7 : Memref sig .tc .vmem S8192 .f32) (harg7 : arg7.IsWhole)
    (x0 : Vec F S8192x256 .f32) (x1 : Vec F S8192 .f32) (x2 : Vec F S256x64 .f32) (x3 : Vec F S64 .f32) (x4 : Vec F S64x1 .f32) (x5 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__mlp_gate_kernel i arg1 harg1 arg2 harg2 arg3 harg3 arg4 harg4 arg5 harg5 arg6 harg6 arg7 harg7) K := by
  simp only [cc0__mlp_gate_kernel_eq_skeleton]; unfold cc0__mlp_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- Pipeline 0's proof data on core `c`: the arrays as the region finds them; after the body at point `t` each input's
    buffer at its block and the output's at `out0_6` of the input blocks; the scoped rest and the generator register
    untouched; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Body1.lean ====
/-
  Region 1 of @main (the symmetrising kernel) at a parameter `V`, the core's buffer contents when the region is
  entered. The grid is 8 × 8 tiles of 1024 × 1024. At tile (i, j) window 0 holds tile (i, j) of the adjacency
  matrix, window 1 tile (i, j) of the scattered mask and window 2 tile (j, i) of the SAME mask array; the body stores
  into the output window's buffer one piece covering it, `adj · (0.5 · (mask_ij + transpose mask_ji))` (the payload
  `k1_pay1`), written back as tile (i, j) of the result.
  Two input windows read one array, so the proof data holds that array at the two halves of the full share, one
  half per window; the other arrays are held whole. Stated for any float instance.
-/
import proofs.«170812_j85040352461208_1_alg».proof.Proof.Gen.KernelIdeal.Launch
import proofs.«170812_j85040352461208_1_alg».proof.Proof.Gen.KernelIdeal.Skeleton
import proofs.«170812_j85040352461208_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Every load and the one store take the whole 1024 × 1024 buffer. -/
abbrev rT : Rect S1024x1024 := Rect.unit (s := S1024x1024) ![0, 0] S1024x1024.size inb_S1024x1024_S1024x1024_0_0

/-- The output window's buffer after the body, from the three input tiles. -/
def out1_3 (x0 : Vec F S1024x1024 .f32) (x1 : Vec F S1024x1024 .f32) (x2 : Vec F S1024x1024 .f32) : Vec F S1024x1024 .f32 :=
  View.canon [⟨rT, k1_pay1 (View.ld x1 rT) (View.ld x2 rT) (View.ld x0 rT)⟩]

/-- The one store covers the buffer. -/
theorem cover1_3 (p0 : Vec F S1024x1024 .f32) (y : S1024x1024.Idx) :
    ∃ pc ∈ ([⟨rT, p0⟩] : List (View.Piece (Elt F) S1024x1024 .f32)), y ∈ pc.1.set :=
  View.cover_of_tiled [⟨rT, p0⟩] S1024x1024.size (by rfl) y

set_option maxHeartbeats 1000000 in
/-- The body on whole staging buffers, the inputs' at contents `x0 x1 x2` and the output's at anything, leaves the
    inputs' as they were and the output's at `out1_3` of them. -/
theorem sound_kernel1 (c : Dev nD) (E : Set ℕ) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole)
    (x0 : Vec F S1024x1024 .f32) (x1 : Vec F S1024x1024 .f32) (x2 : Vec F S1024x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__sym_mask_kernel i arg2 harg2 arg3 harg3 arg4 harg4 arg5 harg5) K := by
  simp only [cc1__sym_mask_kernel_eq_skeleton]; unfold cc1__sym_mask_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- Pipeline 1's proof data on core `c`: the arrays as the region finds them; after the body at point `t` each input's
    buffer at its block and the output's at `out1_3` of the input tiles; the scoped rest and the generator register
    untouched; nothing owed; the mask array, read by windows 1 and 2, held at the left half of the full share for
    window 1 and at the right half for window 2, the adjacency matrix whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The shares the core holds the four windows' arrays at. -/
theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Shared1.lean ====
/-
  Region 1's arrays among the core's unscoped buffers. Its four windows stand on three buffers: the adjacency matrix
  (window 0), the scattered mask (windows 1 AND 2) and the result (window 3). Held whole, the mask's buffer is the
  two halves of its full share, one per window that reads it; so the three buffers held whole at contents `V` are
  exactly the proof data's `arrays` at any per-window contents that agree with `V`, in both directions.
-/
import proofs.«170812_j85040352461208_1_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (Vd : (c : Dev nD) → (b : Ref sig .tc) → Buf (Elt F) ((c : Thread nD τ).loc b))

/-- The distinct buffers behind the four windows. -/
theorem arrs1_image : Finset.univ.image (Pipeline.arrRef spec1) = ({main_arg1, main_v34, main_v35} : Finset (Ref sig .tc)) := by decide

/-- Those three buffers, each whole at `V`. -/
theorem arrBufs1_eq (c : Dev nD) (V : (b : Ref sig .tc) → Buf (Elt F) ((c : Thread nD τ).loc b)) :
    (Pipeline.arrBufs spec1 c V : sProp 𝕄)
      = iprop((((c : Thread nD τ).loc main_arg1) ↦{fullShare} V main_arg1) ∗ (((c : Thread nD τ).loc main_v34) ↦{fullShare} V main_v34)
          ∗ (((c : Thread nD τ).loc main_v35) ↦{fullShare} V main_v35)) := by
  unfold Pipeline.arrBufs
  rw [arrs1_image, BI.bigSep_insert (by decide), BI.bigSep_insert (by decide), BI.bigSep_singleton]
  rfl

/-- The proof data's arrays, window by window: the mask's buffer at the two halves of the full share. -/
theorem arrays1_eq (c : Dev nD) (G : (w : Fin cfg1.W) → Buf (Elt F) ((cfg1.win w).arr.view.loc (c : Thread nD τ))) :
    ((dat1 Vd c).arrays G : sProp 𝕄)
      = iprop((((c : Thread nD τ).loc main_arg1) ↦{fullShare} G 0) ∗ (((c : Thread nD τ).loc main_v34) ↦{fullShare.left} G 1)
          ∗ (((c : Thread nD τ).loc main_v34) ↦{fullShare.right} G 2) ∗ (((c : Thread nD τ).loc main_v35) ↦{fullShare} G 3)) := by
  unfold Dat.arrays
  rw [bigSep_W1]
  simp only [(arr_whole1 0).set_eq_univ, (arr_whole1 1).set_eq_univ, (arr_whole1 2).set_eq_univ, (arr_whole1 3).set_eq_univ,
    share1_0, share1_1, share1_2, share1_3]

/-- ENTRY: the three buffers held whole at `V` make the proof data's arrays at contents that agree with `V`: the mask's
    buffer is split into the two halves of its share. -/
theorem arrays1_of_arrBufs (c : Dev nD) (V : (b : Ref sig .tc) → Buf (Elt F) ((c : Thread nD τ).loc b))
    (G : (w : Fin cfg1.W) → Buf (Elt F) ((cfg1.win w).arr.view.loc (c : Thread nD τ)))
    (h0 : G 0 = V main_arg1) (h1 : G 1 = V main_v34) (h2 : G 2 = V main_v34) (h3 : G 3 = V main_v35) :
    (Pipeline.arrBufs spec1 c V : sProp 𝕄) ⊢ (dat1 Vd c).arrays G := by
  rw [arrBufs1_eq, arrays1_eq, h0, h1, h2, h3]
  iintro ⟨H0, H1, H3⟩
  ihave H12 := (pointsTo_share (PosShare.mem_left_op_right fullShare)).1 $$ H1
  icases H12 with ⟨Hl, Hr⟩
  isplitl [H0]; · iexact H0
  isplitl [Hl]; · iexact Hl
  isplitl [Hr]; · iexact Hr
  iexact H3

/-- EXIT: the proof data's arrays, at contents that agree with `V`, are the three buffers held whole at `V`: the two
    halves of the mask's buffer, at one contents, join. -/
theorem arrBufs_of_arrays1 (c : Dev nD) (V : (b : Ref sig .tc) → Buf (Elt F) ((c : Thread nD τ).loc b))
    (G : (w : Fin cfg1.W) → Buf (Elt F) ((cfg1.win w).arr.view.loc (c : Thread nD τ)))
    (h0 : G 0 = V main_arg1) (h1 : G 1 = V main_v34) (h2 : G 2 = V main_v34) (h3 : G 3 = V main_v35) :
    ((dat1 Vd c).arrays G : sProp 𝕄) ⊢ Pipeline.arrBufs spec1 c V := by
  rw [arrBufs1_eq, arrays1_eq, h0, h1, h2, h3]
  iintro ⟨H0, Hl, Hr, H3⟩
  isplitl [H0]; · iexact H0
  isplitl [Hl Hr]
  · iapply (pointsTo_share (PosShare.mem_left_op_right fullShare)).2
    isplitl [Hl]; · iexact Hl
    iexact Hr
  iexact H3

end Cert.KernelIdeal.Hand

end
-- ==== Proof.KI.Run.lean ====
/-
  The run of @main: a stretch of host operations (the edge gather), region 0 (the gate kernel), a second stretch
  (the scatter-add of the gates into the mask), region 1 (the symmetrising kernel). The core's unscoped buffers are
  followed through the four items as a valuation: the launch contents, then each host stretch's operations applied,
  then each region's arrays at what its write-backs leave. Every weakly fair execution terminates, and the final
  memory holds every unscoped buffer at the last valuation — from which the arguments are read back to their launch
  contents (no item writes one) and the result to what region 1 leaves. Stated for any float instance.
-/
import proofs.«170812_j85040352461208_1_alg».proof.Proof.KI.Body0
import proofs.«170812_j85040352461208_1_alg».proof.Proof.KI.Body1
import proofs.«170812_j85040352461208_1_alg».proof.Proof.KI.Shared1
import proofs.«170812_j85040352461208_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => m ((c : Dev nD), b)
/-- After the first host stretch (region 0's entry). -/
abbrev B1 : Dev nD → Valuation τ sig (Elt F) := fun c => StableHlo.after hostOps0 (B0 m c)
abbrev VB1 : (c : Dev nD) → (b : Ref sig .tc) → Buf (Elt F) ((c : Thread nD τ).loc b) := fun c b => B1 m c b
/-- At region 0's exit: its arrays at what the pipeline leaves, every other buffer as entered. -/
def B2 (c : Dev nD) : Valuation τ sig (Elt F) :=
  Pipeline.withArrays spec0 c (B1 m c) fun w => (dat0 (VB1 m) c).arrAt w cfg0.N
theorem B2_arr (c : Dev nD) (w : Fin cfg0.W) :
    B2 m c (Proc.devRef .tc (Pipeline.arrRef spec0 w)) = (dat0 (VB1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev VB2 : (c : Dev nD) → (b : Ref sig .tc) → Buf (Elt F) ((c : Thread nD τ).loc b) := fun c b => B2 m c b
theorem hF0 (c : Dev nD) (w : Fin cfg0.W) : (dat0 (VB1 m) c).arrAt w cfg0.N = VB2 m c (Pipeline.arrRef spec0 w) :=
  (B2_arr m c w).symm
theorem hrest0 (c : Dev nD) : ∀ b, b ∉ Finset.univ.image (Pipeline.arrRef spec0) → VB2 m c b = VB1 m c b :=
  fun b hb => B2_of_ne m c b fun w e => hb (Finset.mem_image.mpr ⟨w, Finset.mem_univ _, e⟩)

/-- After the second host stretch (region 1's entry). -/
abbrev B3 : Dev nD → Valuation τ sig (Elt F) := fun c => StableHlo.after hostOps1 (B2 m c)
abbrev VB3 : (c : Dev nD) → (b : Ref sig .tc) → Buf (Elt F) ((c : Thread nD τ).loc b) := fun c b => B3 m c b
/-- The result array as region 1 leaves it. -/
def res1 (c : Dev nD) : Buf (Elt F) ((c : Thread nD τ).loc main_v35) := (dat1 (VB3 m) c).arrAt 3 cfg1.N
/-- At region 1's exit: the result at what the pipeline leaves, every other buffer as entered (the region's other
    arrays are inputs, never written). -/
def B4 (c : Dev nD) : Valuation τ sig (Elt F) := Function.update (B3 m c) main_v35 (res1 m c)
abbrev VB4 : (c : Dev nD) → (b : Ref sig .tc) → Buf (Elt F) ((c : Thread nD τ).loc b) := fun c b => B4 m c b
theorem B4_res (c : Dev nD) : B4 m c (Proc.devRef .tc main_v35) = res1 m c := by
  unfold B4; exact Function.update_self ..
theorem B4_of_ne (c : Dev nD) (r : Ref sig .tc) (h : r ≠ main_v35) : B4 m c (Proc.devRef .tc r) = B3 m c (Proc.devRef .tc r) := by
  unfold B4
  exact Function.update_of_ne (StableHlo.devRef_ne_of_ne h : (Proc.devRef .tc r : DevRef τ sig) ≠ Proc.devRef .tc main_v35) _ _

/-! ### The arguments end as launched -/

theorem B4_main_arg0 (c : Dev nD) : B4 m c (Proc.devRef .tc main_arg0) = m ((c : Thread nD τ).loc main_arg0) :=
  calc B4 m c (Proc.devRef .tc main_arg0)
    _ = B3 m c (Proc.devRef .tc main_arg0) := B4_of_ne m c main_arg0 (by decide)
    _ = B2 m c (Proc.devRef .tc main_arg0) := StableHlo.after_of_writes_sub hostOps1 _ hostOps1_writes (by decide : main_arg0 ∉ hostOps1_W)
    _ = B1 m c (Proc.devRef .tc main_arg0) := B2_of_ne m c main_arg0 (by decide)
    _ = B0 m c (Proc.devRef .tc main_arg0) := StableHlo.after_of_writes_sub hostOps0 _ hostOps0_writes (by decide : main_arg0 ∉ hostOps0_W)
    _ = m ((c : Thread nD τ).loc main_arg0) := rfl

theorem B4_main_arg1 (c : Dev nD) : B4 m c (Proc.devRef .tc main_arg1) = m ((c : Thread nD τ).loc main_arg1) :=
  calc B4 m c (Proc.devRef .tc main_arg1)
    _ = B3 m c (Proc.devRef .tc main_arg1) := B4_of_ne m c main_arg1 (by decide)
    _ = B2 m c (Proc.devRef .tc main_arg1) := StableHlo.after_of_writes_sub hostOps1 _ hostOps1_writes (by decide : main_arg1 ∉ hostOps1_W)
    _ = B1 m c (Proc.devRef .tc main_arg1) := B2_of_ne m c main_arg1 (by decide)
    _ = B0 m c (Proc.devRef .tc main_arg1) := StableHlo.after_of_writes_sub hostOps0 _ hostOps0_writes (by decide : main_arg1 ∉ hostOps0_W)
    _ = m ((c : Thread nD τ).loc main_arg1) := rfl

theorem B4_main_arg2 (c : Dev nD) : B4 m c (Proc.devRef .tc main_arg2) = m ((c : Thread nD τ).loc main_arg2) :=
  calc B4 m c (Proc.devRef .tc main_arg2)
    _ = B3 m c (Proc.devRef .tc main_arg2) := B4_of_ne m c main_arg2 (by decide)
    _ = B2 m c (Proc.devRef .tc main_arg2) := StableHlo.after_of_writes_sub hostOps1 _ hostOps1_writes (by decide : main_arg2 ∉ hostOps1_W)
    _ = B1 m c (Proc.devRef .tc main_arg2) := (B2_arr m c 1).trans (((dat0 (VB1 m) c).arrAt_in 1 rfl _).trans (A_eq0 (VB1 m) c 1))
    _ = B0 m c (Proc.devRef .tc main_arg2) := StableHlo.after_of_writes_sub hostOps0 _ hostOps0_writes (by decide : main_arg2 ∉ hostOps0_W)
    _ = m ((c : Thread nD τ).loc main_arg2) := rfl

theorem B4_main_arg3 (c : Dev nD) : B4 m c (Proc.devRef .tc main_arg3) = m ((c : Thread nD τ).loc main_arg3) :=
  calc B4 m c (Proc.devRef .tc main_arg3)
    _ = B3 m c (Proc.devRef .tc main_arg3) := B4_of_ne m c main_arg3 (by decide)
    _ = B2 m c (Proc.devRef .tc main_arg3) := StableHlo.after_of_writes_sub hostOps1 _ hostOps1_writes (by decide : main_arg3 ∉ hostOps1_W)
    _ = B1 m c (Proc.devRef .tc main_arg3) := (B2_arr m c 2).trans (((dat0 (VB1 m) c).arrAt_in 2 rfl _).trans (A_eq0 (VB1 m) c 2))
    _ = B0 m c (Proc.devRef .tc main_arg3) := StableHlo.after_of_writes_sub hostOps0 _ hostOps0_writes (by decide : main_arg3 ∉ hostOps0_W)
    _ = m ((c : Thread nD τ).loc main_arg3) := rfl

theorem B4_main_arg4 (c : Dev nD) : B4 m c (Proc.devRef .tc main_arg4) = m ((c : Thread nD τ).loc main_arg4) :=
  calc B4 m c (Proc.devRef .tc main_arg4)
    _ = B3 m c (Proc.devRef .tc main_arg4) := B4_of_ne m c main_arg4 (by decide)
    _ = B2 m c (Proc.devRef .tc main_arg4) := StableHlo.after_of_writes_sub hostOps1 _ hostOps1_writes (by decide : main_arg4 ∉ hostOps1_W)
    _ = B1 m c (Proc.devRef .tc main_arg4) := (B2_arr m c 3).trans (((dat0 (VB1 m) c).arrAt_in 3 rfl _).trans (A_eq0 (VB1 m) c 3))
    _ = B0 m c (Proc.devRef .tc main_arg4) := StableHlo.after_of_writes_sub hostOps0 _ hostOps0_writes (by decide : main_arg4 ∉ hostOps0_W)
    _ = m ((c : Thread nD τ).loc main_arg4) := rfl

theorem B4_main_arg5 (c : Dev nD) : B4 m c (Proc.devRef .tc main_arg5) = m ((c : Thread nD τ).loc main_arg5) :=
  calc B4 m c (Proc.devRef .tc main_arg5)
    _ = B3 m c (Proc.devRef .tc main_arg5) := B4_of_ne m c main_arg5 (by decide)
    _ = B2 m c (Proc.devRef .tc main_arg5) := StableHlo.after_of_writes_sub hostOps1 _ hostOps1_writes (by decide : main_arg5 ∉ hostOps1_W)
    _ = B1 m c (Proc.devRef .tc main_arg5) := (B2_arr m c 4).trans (((dat0 (VB1 m) c).arrAt_in 4 rfl _).trans (A_eq0 (VB1 m) c 4))
    _ = B0 m c (Proc.devRef .tc main_arg5) := StableHlo.after_of_writes_sub hostOps0 _ hostOps0_writes (by decide : main_arg5 ∉ hostOps0_W)
    _ = m ((c : Thread nD τ).loc main_arg5) := rfl

theorem B4_main_arg6 (c : Dev nD) : B4 m c (Proc.devRef .tc main_arg6) = m ((c : Thread nD τ).loc main_arg6) :=
  calc B4 m c (Proc.devRef .tc main_arg6)
    _ = B3 m c (Proc.devRef .tc main_arg6) := B4_of_ne m c main_arg6 (by decide)
    _ = B2 m c (Proc.devRef .tc main_arg6) := StableHlo.after_of_writes_sub hostOps1 _ hostOps1_writes (by decide : main_arg6 ∉ hostOps1_W)
    _ = B1 m c (Proc.devRef .tc main_arg6) := (B2_arr m c 5).trans (((dat0 (VB1 m) c).arrAt_in 5 rfl _).trans (A_eq0 (VB1 m) c 5))
    _ = B0 m c (Proc.devRef .tc main_arg6) := StableHlo.after_of_writes_sub hostOps0 _ hostOps0_writes (by decide : main_arg6 ∉ hostOps0_W)
    _ = m ((c : Thread nD τ).loc main_arg6) := rfl

theorem B4_main_arg7 (c : Dev nD) : B4 m c (Proc.devRef .tc main_arg7) = m ((c : Thread nD τ).loc main_arg7) :=
  calc B4 m c (Proc.devRef .tc main_arg7)
    _ = B3 m c (Proc.devRef .tc main_arg7) := B4_of_ne m c main_arg7 (by decide)
    _ = B2 m c (Proc.devRef .tc main_arg7) := StableHlo.after_of_writes_sub hostOps1 _ hostOps1_writes (by decide : main_arg7 ∉ hostOps1_W)
    _ = B1 m c (Proc.devRef .tc main_arg7) := B2_of_ne m c main_arg7 (by decide)
    _ = B0 m c (Proc.devRef .tc main_arg7) := StableHlo.after_of_writes_sub hostOps0 _ hostOps0_writes (by decide : main_arg7 ∉ hostOps0_W)
    _ = m ((c : Thread nD τ).loc main_arg7) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VB1 m) c
  | ⟨1, _⟩ => fun c => dat1 (VB3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the register at some state. -/
abbrev Tₙ (c : Dev nD) : sProp 𝕄 := iprop(StableHlo.held (c : Thread nD τ) (Pipeline.ucRefs τ sig) (B4 m c) ∗ ∃ r, prngReg c r)

/-! ## Region 1's arrays out of the unscoped buffers and back -/

/-- ENTRY: the unscoped buffers at region 1's entry contents are its arrays (the mask's buffer split into the two
    halves its two windows hold) and the rest. -/
theorem entry1 (c : Dev nD) :
    (unscopedBufs c (VB3 m c) : sProp 𝕄) ⊢ iprop((dat1 (VB3 m) c).arrays (dat1 (VB3 m) c).A ∗ Pipeline.unscopedRest spec1 c (VB3 m c)) := by
  rw [Pipeline.unscopedBufs_split₀ cfgs 1 winFacts₀1.arr_unscoped c (VB3 m c)]
  exact sep_mono (arrays1_of_arrBufs (VB3 m) c (VB3 m c) _ (A_eq1 (VB3 m) c 0) (A_eq1 (VB3 m) c 1) (A_eq1 (VB3 m) c 2) (A_eq1 (VB3 m) c 3)) .rfl

/-- EXIT: region 1's arrays at what the pipeline leaves (the inputs as entered, the result written) and the rest are
    the unscoped buffers at the exit contents. -/
theorem exit1 (c : Dev nD) :
    iprop((dat1 (VB3 m) c).arrays ((dat1 (VB3 m) c).arrAt · cfg1.N) ∗ Pipeline.unscopedRest spec1 c (VB3 m c)) ⊢ (unscopedBufs c (VB4 m c) : sProp 𝕄) := by
  rw [Pipeline.unscopedBufs_split₀ cfgs 1 winFacts₀1.arr_unscoped c (VB4 m c)]
  refine sep_mono (arrBufs_of_arrays1 (VB3 m) c (VB4 m c) _ ?_ ?_ ?_ ?_) (Entails.of_eq ?_)
  · exact (((dat1 (VB3 m) c).arrAt_in 0 rfl _).trans (A_eq1 (VB3 m) c 0)).trans (B4_of_ne m c main_arg1 (by decide)).symm
  · exact (((dat1 (VB3 m) c).arrAt_in 1 rfl _).trans (A_eq1 (VB3 m) c 1)).trans (B4_of_ne m c main_v34 (by decide)).symm
  · exact (((dat1 (VB3 m) c).arrAt_in 2 rfl _).trans (A_eq1 (VB3 m) c 2)).trans (B4_of_ne m c main_v34 (by decide)).symm
  · exact (B4_res m c).symm
  · unfold Pipeline.unscopedRest
    refine bigSep_congr fun b hb => ?_
    have hne : b ≠ main_v35 := fun e => (Finset.mem_sdiff.mp hb).2 (Finset.mem_image.mpr ⟨3, Finset.mem_univ _, e ▸ rfl⟩)
    rw [show VB4 m c b = VB3 m c b from B4_of_ne m c b hne]

/-! ## The regions as segments -/

set_option backward.isDefEq.respectTransparency.types false in
/-- REGION 0 over the thread state: entered from every unscoped buffer at `B1`, left at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VB1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (VB1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VB1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VB1 m c) (VB2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `B3`, left at `B4`. Two of its input
    windows read one array, so its arrays leave the unscoped buffers and return by `entry1` / `exit1`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VB3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB3 m c)
  hentry c := by
    rw [Pipeline.ownSems0_none]
    have hsplit : (unscopedBufs c (VB3 m c) : sProp 𝕄) ⊢ iprop((pdats m 1 c).arrays (pdats m 1 c).A ∗ Pipeline.unscopedRest spec1 c (VB3 m c)) := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (VB3 m c)) ⊢ (unscopedBufs c (VB4 m c) : sProp 𝕄) := exit1 m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev mainSegs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m) ]
/-- @main IS the run of the segments. -/
theorem main_run (c : Dev nD) : main (F := F) c = Pipeline.Seg.run (mainSegs m) := (main_chain c).trans (by chain_rfl)

set_option backward.isDefEq.respectTransparency.types false in
/-- THE RUN: from any memory with zero counters every weakly fair execution of @main terminates, nothing faulting, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c),
     (h c _ (mem_uc main_arg5 (by decide))).trans (B4_main_arg5 m c),
     (h c _ (mem_uc main_arg6 (by decide))).trans (B4_main_arg6 m c),
     (h c _ (mem_uc main_arg7 (by decide))).trans (B4_main_arg7 m c)⟩)
    (run_all m ρ)

/-- THE RUN WITH THE RESULT NAMED: the result array ends at what region 1 leaves, the arguments as launched. -/
theorem run_value : θ_run defs (onTc (τ := τ) (main (F := F))) ⟨m, fun _ => 0, ρ⟩ (fun r => ∀ c : Dev nD,
      r.2.mem ((c.tc : Thread nD τ).loc main_v35) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v35 (by decide))).trans (B4_res m c),
     (h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c),
     (h c _ (mem_uc main_arg5 (by decide))).trans (B4_main_arg5 m c),
     (h c _ (mem_uc main_arg6 (by decide))).trans (B4_main_arg6 m c),
     (h c _ (mem_uc main_arg7 (by decide))).trans (B4_main_arg7 m c)⟩)
    (run_all m ρ)

end Cert.KernelIdeal.Hand

end
-- ==== Proof.RefImports.lean ====
/- The reference's generated run and its read-at-an-index lemmas, imported once for the modules that state the reference's value. -/
import proofs.«170812_j85040352461208_1_alg».proof.Proof.Gen.ReferenceIdeal.Run
import proofs.«170812_j85040352461208_1_alg».proof.Proof.Gen.ReferenceIdeal.Read
-- ==== Proof.KI.GateMath.lean ====
/-
  The gate at one edge. Within block t of 8192 edges the body computes, at row r,
  `logistic (log n − log1p (0 − n) + (Σ_k max (Σ_j h(r,j)·W1(j,k) + b1(k)) 0 · W2(k,0) + b2(0)))`
  from the block's rows of edge features h and noise n. The reference computes, at edge e = 8192·t + r,
  `1 / (1 + exp (−(log n − log1p (−n) + logit)))` with the same logit over the whole arrays. At the ideal instance
  the matrix products are the same finite sums, `0 − n = −n`, and the logistic function is `1 / (1 + exp (−x))`.
-/
import proofs.«170812_j85040352461208_1_alg».proof.Proof.Gen.KernelIdeal.Skeleton
import proofs.«170812_j85040352461208_1_alg».proof.Proof.RefImports
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.ReferenceIdeal.Read (val_main_v18 val_main_v39 val_main_v54 val_main_v59)

/-- Edge `r` of block `t`, among all 262144 edges. -/
abbrev edgeOf (t : Fin 32) (r : Fin 8192) : Fin 262144 := ⟨8192 * t.val + r.val, by omega⟩

/-! ## The two block products read at an index

Each is the finite sum over the one contracted axis: the operand indices of the contraction at output index
`(p, c)` and contraction coordinate `k` are `(p, k)` and `(k, c)`. -/

theorem lhs_rows_0 (i : S8192x64.Idx) (q : dot_S8192x256_S256x64_S8192x64_1_0_0_1_n_n.contr.Idx) :
    (dot_S8192x256_S256x64_S8192x64_1_0_0_1_n_n.lhsIdx i q 0).val = (i 0).val := by
  unfold DotDims.lhsIdx
  rw [dif_neg (show ¬(0 : Fin S8192x256.rank) ∈ dot_S8192x256_S256x64_S8192x64_1_0_0_1_n_n.lhsBatch by decide), dif_pos (show (0 : Fin S8192x256.rank) ∈ dot_S8192x256_S256x64_S8192x64_1_0_0_1_n_n.lhsNonContracting by decide)]
  rfl
theorem lhs_rows_1 (i : S8192x64.Idx) (q : dot_S8192x256_S256x64_S8192x64_1_0_0_1_n_n.contr.Idx) :
    (dot_S8192x256_S256x64_S8192x64_1_0_0_1_n_n.lhsIdx i q 1).val = (q ⟨0, by decide⟩).val :=
  dot_S8192x256_S256x64_S8192x64_1_0_0_1_n_n.lhsIdx_val_of_single rfl i q
theorem rhs_rows_0 (i : S8192x64.Idx) (q : dot_S8192x256_S256x64_S8192x64_1_0_0_1_n_n.contr.Idx) :
    (dot_S8192x256_S256x64_S8192x64_1_0_0_1_n_n.rhsIdx i q 0).val = (q ⟨0, by decide⟩).val :=
  dot_S8192x256_S256x64_S8192x64_1_0_0_1_n_n.rhsIdx_val_of_single rfl i q
theorem rhs_rows_1 (i : S8192x64.Idx) (q : dot_S8192x256_S256x64_S8192x64_1_0_0_1_n_n.contr.Idx) :
    (dot_S8192x256_S256x64_S8192x64_1_0_0_1_n_n.rhsIdx i q 1).val = (i 1).val := by
  unfold DotDims.rhsIdx
  rw [dif_neg (show ¬(1 : Fin S256x64.rank) ∈ dot_S8192x256_S256x64_S8192x64_1_0_0_1_n_n.rhsBatch by decide), dif_pos (show (1 : Fin S256x64.rank) ∈ dot_S8192x256_S256x64_S8192x64_1_0_0_1_n_n.rhsNonContracting by decide)]
  rfl

/-- `[8192,256] × [256,64]` into the zero accumulator, at `(p, c)`: `Σ_k lhs (p, k) · rhs (k, c)`. -/
theorem matmul_rows_apply (lhs : FVec Ideal S8192x256 .f32) (rhs : FVec Ideal S256x64 .f32) (p : Fin 8192) (c : Fin 64) :
    matmul (F := Ideal) dot_S8192x256_S256x64_S8192x64_1_0_0_1_n_n none lhs rhs (constant S8192x64 .f32 0x00000000#32) (ix2 p c)
      = ∑ k : Fin 256, lhs (ix2 p k) * rhs (ix2 k c) := by
  simp only [matmul]
  rw [Ideal.matmul_constant_zero_apply, ← Equiv.sum_comp (ValueIdx.contrEquiv1 dot_S8192x256_S256x64_S8192x64_1_0_0_1_n_n 256 rfl rfl).symm]
  refine Finset.sum_congr rfl fun k _ => ?_
  have hk := ValueIdx.contrEquiv1_symm_val dot_S8192x256_S256x64_S8192x64_1_0_0_1_n_n 256 rfl rfl k
  have el : dot_S8192x256_S256x64_S8192x64_1_0_0_1_n_n.lhsIdx (ix2 p c) ((ValueIdx.contrEquiv1 dot_S8192x256_S256x64_S8192x64_1_0_0_1_n_n 256 rfl rfl).symm k) = ix2 p k := funext fun a => Fin.ext (by
    match a with
    | ⟨0, _⟩ => exact lhs_rows_0 _ _
    | ⟨1, _⟩ => exact (lhs_rows_1 _ _).trans hk)
  have er : dot_S8192x256_S256x64_S8192x64_1_0_0_1_n_n.rhsIdx (ix2 p c) ((ValueIdx.contrEquiv1 dot_S8192x256_S256x64_S8192x64_1_0_0_1_n_n 256 rfl rfl).symm k) = ix2 k c := funext fun a => Fin.ext (by
    match a with
    | ⟨0, _⟩ => exact (rhs_rows_0 _ _).trans hk
    | ⟨1, _⟩ => exact rhs_rows_1 _ _)
  rw [el, er]

theorem lhs_col_0 (i : S8192x1.Idx) (q : dot_S8192x64_S64x1_S8192x1_1_0_0_1_n_n.contr.Idx) :
    (dot_S8192x64_S64x1_S8192x1_1_0_0_1_n_n.lhsIdx i q 0).val = (i 0).val := by
  unfold DotDims.lhsIdx
  rw [dif_neg (show ¬(0 : Fin S8192x64.rank) ∈ dot_S8192x64_S64x1_S8192x1_1_0_0_1_n_n.lhsBatch by decide), dif_pos (show (0 : Fin S8192x64.rank) ∈ dot_S8192x64_S64x1_S8192x1_1_0_0_1_n_n.lhsNonContracting by decide)]
  rfl
theorem lhs_col_1 (i : S8192x1.Idx) (q : dot_S8192x64_S64x1_S8192x1_1_0_0_1_n_n.contr.Idx) :
    (dot_S8192x64_S64x1_S8192x1_1_0_0_1_n_n.lhsIdx i q 1).val = (q ⟨0, by decide⟩).val :=
  dot_S8192x64_S64x1_S8192x1_1_0_0_1_n_n.lhsIdx_val_of_single rfl i q
theorem rhs_col_0 (i : S8192x1.Idx) (q : dot_S8192x64_S64x1_S8192x1_1_0_0_1_n_n.contr.Idx) :
    (dot_S8192x64_S64x1_S8192x1_1_0_0_1_n_n.rhsIdx i q 0).val = (q ⟨0, by decide⟩).val :=
  dot_S8192x64_S64x1_S8192x1_1_0_0_1_n_n.rhsIdx_val_of_single rfl i q
theorem rhs_col_1 (i : S8192x1.Idx) (q : dot_S8192x64_S64x1_S8192x1_1_0_0_1_n_n.contr.Idx) :
    (dot_S8192x64_S64x1_S8192x1_1_0_0_1_n_n.rhsIdx i q 1).val = (i 1).val := by
  unfold DotDims.rhsIdx
  rw [dif_neg (show ¬(1 : Fin S64x1.rank) ∈ dot_S8192x64_S64x1_S8192x1_1_0_0_1_n_n.rhsBatch by decide), dif_pos (show (1 : Fin S64x1.rank) ∈ dot_S8192x64_S64x1_S8192x1_1_0_0_1_n_n.rhsNonContracting by decide)]
  rfl

/-- `[8192,64] × [64,1]` into the zero accumulator, at `(p, u)`: `Σ_k lhs (p, k) · rhs (k, u)`. -/
theorem matmul_col_apply (lhs : FVec Ideal S8192x64 .f32) (rhs : FVec Ideal S64x1 .f32) (p : Fin 8192) (u : Fin 1) :
    matmul (F := Ideal) dot_S8192x64_S64x1_S8192x1_1_0_0_1_n_n none lhs rhs (constant S8192x1 .f32 0x00000000#32) (ix2 p u)
      = ∑ k : Fin 64, lhs (ix2 p k) * rhs (ix2 k u) := by
  simp only [matmul]
  rw [Ideal.matmul_constant_zero_apply, ← Equiv.sum_comp (ValueIdx.contrEquiv1 dot_S8192x64_S64x1_S8192x1_1_0_0_1_n_n 64 rfl rfl).symm]
  refine Finset.sum_congr rfl fun k _ => ?_
  have hk := ValueIdx.contrEquiv1_symm_val dot_S8192x64_S64x1_S8192x1_1_0_0_1_n_n 64 rfl rfl k
  have el : dot_S8192x64_S64x1_S8192x1_1_0_0_1_n_n.lhsIdx (ix2 p u) ((ValueIdx.contrEquiv1 dot_S8192x64_S64x1_S8192x1_1_0_0_1_n_n 64 rfl rfl).symm k) = ix2 p k := funext fun a => Fin.ext (by
    match a with
    | ⟨0, _⟩ => exact lhs_col_0 _ _
    | ⟨1, _⟩ => exact (lhs_col_1 _ _).trans hk)
  have er : dot_S8192x64_S64x1_S8192x1_1_0_0_1_n_n.rhsIdx (ix2 p u) ((ValueIdx.contrEquiv1 dot_S8192x64_S64x1_S8192x1_1_0_0_1_n_n 64 rfl rfl).symm k) = ix2 k u := funext fun a => Fin.ext (by
    match a with
    | ⟨0, _⟩ => exact (rhs_col_0 _ _).trans hk
    | ⟨1, _⟩ => exact rhs_col_1 _ _)
  rw [el, er]

/-! ## The body at one row -/

/-- The hidden layer at `(p, k)`: `max (Σ_j h (p, j) · W1 (j, k) + b1 k) 0`. -/
theorem hidden_apply (v0 : FVec Ideal S8192x256 .f32) (w1 : FVec Ideal S256x64 .f32) (b1 : FVec Ideal S64 .f32)
    (p : Fin 8192) (k : Fin 64) :
    maximumf (F := Ideal)
        (addf (matmul dot_S8192x256_S256x64_S8192x64_1_0_0_1_n_n none (shapeCast S8192x256 v0 shapeCasts_S8192x256_S8192x256) w1 (constant S8192x64 .f32 0x00000000#32))
          (broadcastTo S8192x64 (shapeCast S1x64 b1 shapeCasts_S64_S1x64) broadcasts_S1x64_S8192x64))
        (broadcast S8192x64 (Scalar.ofBits .f32 0x00000000#32)) (ix2 p k)
      = (max ((∑ j : Fin 256, v0 (ix2 p j) * w1 (ix2 j k)) + b1 (ix1 k)) 0 : EReal) := by
  rw [shapeCast_self]
  show max (matmul (F := Ideal) dot_S8192x256_S256x64_S8192x64_1_0_0_1_n_n none v0 w1 (constant S8192x64 .f32 0x00000000#32) (ix2 p k)
      + broadcastTo S8192x64 (shapeCast S1x64 b1 shapeCasts_S64_S1x64) broadcasts_S1x64_S8192x64 (ix2 p k))
      (Ideal.ofBits .f32 0x00000000#32) = _
  rw [matmul_rows_apply, broadcastTo_1b_ab_apply, shapeCast_a_1a_apply, Ideal.ofBits_zero_f32]

/-- The logit at row `p`: `Σ_k h (p, k) · W2 (k, 0) + b2 0`. -/
theorem logit_apply (h : FVec Ideal S8192x64 .f32) (w2 : FVec Ideal S64x1 .f32) (b2 : FVec Ideal S1 .f32) (p : Fin 8192) :
    shapeCast S8192
        (addf (matmul (F := Ideal) dot_S8192x64_S64x1_S8192x1_1_0_0_1_n_n none h w2 (constant S8192x1 .f32 0x00000000#32))
          (broadcastTo S8192x1 (shapeCast S1x1 b2 shapeCasts_S1_S1x1) broadcasts_S1x1_S8192x1))
        shapeCasts_S8192x1_S8192 (ix1 p)
      = ((∑ k : Fin 64, h (ix2 p k) * w2 (ix2 k (0 : Fin 1))) + b2 (ix1 (0 : Fin 1)) : EReal) := by
  rw [shapeCast_apply _ shapeCasts_S8192x1_S8192 (ix1 p) (ix2 p (0 : Fin 1))
    (by rw [Shape.rowMajor_val_two, Shape.rowMajor_val_one]; show p.val * 1 + 0 = p.val; omega)]
  show matmul (F := Ideal) dot_S8192x64_S64x1_S8192x1_1_0_0_1_n_n none h w2 (constant S8192x1 .f32 0x00000000#32) (ix2 p (0 : Fin 1))
      + broadcastTo S8192x1 (shapeCast S1x1 b2 shapeCasts_S1_S1x1) broadcasts_S1x1_S8192x1 (ix2 p (0 : Fin 1)) = _
  rw [matmul_col_apply, broadcastTo_1b_ab_apply, shapeCast_a_1a_apply]

/-- The body at row `p`, from the block's rows of features and noise. -/
theorem pay_apply (v0 : FVec Ideal S8192x256 .f32) (w1 : FVec Ideal S256x64 .f32) (b1 : FVec Ideal S64 .f32)
    (w2 : FVec Ideal S64x1 .f32) (b2 : FVec Ideal S1 .f32) (n : FVec Ideal S8192 .f32) (p : Fin 8192) :
    k0_pay1 (F := Ideal) v0 w1 b1 w2 b2 n (ix1 p)
      = Ideal.logistic (Ideal.log (n (ix1 p)) - Ideal.log1p (-(n (ix1 p)))
          + ((∑ k : Fin 64, max ((∑ j : Fin 256, v0 (ix2 p j) * w1 (ix2 j k)) + b1 (ix1 k)) 0 * w2 (ix2 k (0 : Fin 1)))
              + b2 (ix1 (0 : Fin 1)))) := by
  unfold k0_pay1
  show Ideal.logistic (Ideal.log (n (ix1 p)) - Ideal.log1p (Ideal.ofBits .f32 0x00000000#32 - n (ix1 p))
      + shapeCast S8192 _ shapeCasts_S8192x1_S8192 (ix1 p)) = _
  rw [logit_apply, Ideal.ofBits_zero_f32, zero_sub]
  simp only [hidden_apply]

/-! ## The reference at one edge -/

open Cert.ReferenceIdeal.Read in
/-- The feature row the first product reads: edge `e`, column `j`. -/
theorem idx_feature (e : Fin 262144) (k : Fin 64) (j : Fin 256) :
    lidx_main_v19 (lidx_main_v24 (idx_main_v28 (ix1 e)) k) j = ix2 e j := by
  funext a
  match a with
  | ⟨0, _⟩ => exact Fin.ext (Nat.div_one _)
  | ⟨1, _⟩ => rfl

open Cert.ReferenceIdeal.Read in
/-- The first weight's entry: `(j, k)`. -/
theorem idx_weight1 (e : Fin 262144) (k : Fin 64) (j : Fin 256) :
    ridx_main_v19 (lidx_main_v24 (idx_main_v28 (ix1 e)) k) j = ix2 j k := by
  funext a
  match a with
  | ⟨0, _⟩ => rfl
  | ⟨1, _⟩ => rfl

open Cert.ReferenceIdeal.Read in
/-- The first bias's entry: `k`. -/
theorem idx_bias1 (e : Fin 262144) (k : Fin 64) :
    idx_main_v20 (idx_main_v21 (lidx_main_v24 (idx_main_v28 (ix1 e)) k)) = ix1 k := by
  funext a
  match a with
  | ⟨0, _⟩ => rfl

open Cert.ReferenceIdeal.Read in
/-- The second weight's entry: `(k, 0)`. -/
theorem idx_weight2 (e : Fin 262144) (k : Fin 64) :
    ridx_main_v24 (idx_main_v28 (ix1 e)) k = ix2 k (0 : Fin 1) := by
  funext a
  match a with
  | ⟨0, _⟩ => rfl
  | ⟨1, _⟩ => rfl

open Cert.ReferenceIdeal.Read in
/-- The second bias's one entry. -/
theorem idx_bias2 (e : Fin 262144) :
    idx_main_v25 (idx_main_v26 (idx_main_v28 (ix1 e))) = ix1 (0 : Fin 1) := by
  funext a
  match a with
  | ⟨0, _⟩ => rfl

open Cert.ReferenceIdeal.Read in
/-- The reference at edge `e`: `1 / (1 + exp (−(log n − log1p (−n) + logit)))` over the whole arrays. -/
theorem ref_apply (x0 : (⟨S8192x128, .f32⟩ : BufTy).Contents (Elt Ideal)) (x2 : (⟨S262144, .f32⟩ : BufTy).Contents (Elt Ideal)) (x3 : (⟨S256x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x262144, .i32⟩ : BufTy).Contents (Elt Ideal))
    (e : Fin 262144) :
    val_main_v39 x0 x2 x3 x4 x5 x6 x7 (ix1 e)
      = Ideal.div 1 (1 + Ideal.exp (-(Ideal.log (x2 (ix1 e)) - Ideal.log1p (-(x2 (ix1 e)))
          + ((∑ k : Fin 64, max ((∑ j : Fin 256, val_main_v18 x0 x7 (ix2 e j) * x3 (ix2 j k)) + x4 (ix1 k)) 0 * x5 (ix2 k (0 : Fin 1)))
              + x6 (ix1 (0 : Fin 1)))))) := by
  simp only [val_main_v39_apply, val_main_v38_apply, val_main_cst_3_apply, val_main_v37_apply, val_main_v36_apply,
    val_main_cst_apply, val_main_v35_apply, val_main_v34_apply, val_main_v33_apply, val_main_v32_apply,
    val_main_v31_apply, val_main_v30_apply, val_main_v29_apply, val_main_v28_apply, val_main_v27_apply,
    val_main_v26_apply, val_main_v25_apply, val_main_v24_apply, val_main_v23_apply, val_main_call0_v0_apply,
    val_main_call0_cst_apply, val_main_v22_apply, val_main_v21_apply, val_main_v20_apply, val_main_v19_apply]
  simp only [idx_feature, idx_weight1, idx_bias1, idx_weight2, idx_bias2]
  simp only [Ideal.hostDivf_def, Ideal.ofBits_def, Ideal.addf_def, Ideal.subf_def, Ideal.hostUnary_exp_def,
    Ideal.hostUnary_log_def, Ideal.hostUnary_log1p_def, Ideal.hostNegf_def, Ideal.negf_def, Ideal.maximumf_def,
    Ideal.ofBits_one_f32, Ideal.ofBits_zero_f32]

/-! ## The gate at one edge -/

theorem pay_eq_ref (x0 : (⟨S8192x128, .f32⟩ : BufTy).Contents (Elt Ideal)) (x2 : (⟨S262144, .f32⟩ : BufTy).Contents (Elt Ideal)) (x3 : (⟨S256x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x262144, .i32⟩ : BufTy).Contents (Elt Ideal))
    (v0 : Vec Ideal S8192x256 .f32) (v17 : Vec Ideal S8192 .f32) (t : Fin 32)
    (hv0 : ∀ (r : Fin 8192) (j : Fin 256), v0 (ix2 r j) = val_main_v18 x0 x7 (ix2 (edgeOf t r) j))
    (hv17 : ∀ r : Fin 8192, v17 (ix1 r) = x2 (ix1 (edgeOf t r)))
    (r : Fin 8192) :
    k0_pay1 (F := Ideal) v0 x3 x4 x5 x6 v17 (ix1 r) = val_main_v39 x0 x2 x3 x4 x5 x6 x7 (ix1 (edgeOf t r)) := by
  rw [pay_apply, ref_apply, Ideal.logistic, hv17]
  simp only [hv0]

end Cert.KernelIdeal.Hand

end
-- ==== Proof.KI.Value0.lean ====
/-
  What region 0 leaves in the gate array: point t writes back block t (edges 8192·t … 8192·t + 8191), the 32 blocks
  cover the 262144 edges, and each written entry is the reference's gate at that edge (`pay_eq_ref`).
-/
import proofs.«170812_j85040352461208_1_alg».proof.Proof.KI.Body0
import proofs.«170812_j85040352461208_1_alg».proof.Proof.KI.GateMath
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.ReferenceIdeal.Read (val_main_v18 val_main_v39 val_main_v54 val_main_v59)

/-- The zero offset of a rank-1 buffer, as the constant-zero function. -/
theorem gate_zero_off1 : (![0] : Fin 1 → Nat) = fun _ => 0 := funext fun a => by fin_cases a <;> rfl
/-- The zero offset of a rank-2 buffer, as the constant-zero function. -/
theorem gate_zero_off2 : (![0, 0] : Fin 2 → Nat) = fun _ => 0 := funext fun a => by fin_cases a <;> rfl

/-- The index maps over the 32 points: the edge features' block index is (t, 0), the noise's and the gate's is (t), and the
    weights' and biases' is 0 on every axis. -/
theorem gate_block_indices : ∀ t : Fin cfg0.N,
    win0_0.index t (0 : Fin 2) = t.val ∧ win0_0.index t (1 : Fin 2) = 0
    ∧ win0_1.index t (0 : Fin 1) = t.val
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 1) = t.val :=
  (by decide +kernel : ∀ t : Fin grid0.N, _)

/-- The first weight matrix, read through its one block at index (0, 0), is the matrix. -/
theorem gate_block_W1 (V : (c : Dev nD) → (b : Ref sig .tc) → Buf (Elt Ideal) ((c : Thread nD τ).loc b)) (c : Dev nD) (x3 : (⟨S256x64, .f32⟩ : BufTy).Contents (Elt Ideal)) (h3 : V c main_arg3 = x3) (t : Fin cfg0.N) :
    iblk0 V c 2 t = x3 := by
  obtain ⟨-, -, -, e0, e1, -⟩ := gate_block_indices t
  funext j
  show V c main_arg3 (((cfg0.win 2).blk t).view.emb j) = x3 j
  rw [h3]
  refine congrArg x3 ?_
  funext a; apply Fin.ext
  match a with
  | ⟨0, _⟩ => show win0_2.index t (0 : Fin 2) * 256 + 1 * (j 0).val = (j 0).val; omega
  | ⟨1, _⟩ => show win0_2.index t (1 : Fin 2) * 64 + 1 * (j 1).val = (j 1).val; omega

/-- The first bias, read through its one block at index (0), is the bias. -/
theorem gate_block_b1 (V : (c : Dev nD) → (b : Ref sig .tc) → Buf (Elt Ideal) ((c : Thread nD τ).loc b)) (c : Dev nD) (x4 : (⟨S64, .f32⟩ : BufTy).Contents (Elt Ideal)) (h4 : V c main_arg4 = x4) (t : Fin cfg0.N) :
    iblk0 V c 3 t = x4 := by
  obtain ⟨-, -, -, -, -, e0, -⟩ := gate_block_indices t
  funext j
  show V c main_arg4 (((cfg0.win 3).blk t).view.emb j) = x4 j
  rw [h4]
  refine congrArg x4 ?_
  funext a; apply Fin.ext
  match a with
  | ⟨0, _⟩ => show win0_3.index t (0 : Fin 1) * 64 + 1 * (j 0).val = (j 0).val; omega

/-- The second weight matrix, read through its one block at index (0, 0), is the matrix. -/
theorem gate_block_W2 (V : (c : Dev nD) → (b : Ref sig .tc) → Buf (Elt Ideal) ((c : Thread nD τ).loc b)) (c : Dev nD) (x5 : (⟨S64x1, .f32⟩ : BufTy).Contents (Elt Ideal)) (h5 : V c main_arg5 = x5) (t : Fin cfg0.N) :
    iblk0 V c 4 t = x5 := by
  obtain ⟨-, -, -, -, -, -, e0, e1, -⟩ := gate_block_indices t
  funext j
  show V c main_arg5 (((cfg0.win 4).blk t).view.emb j) = x5 j
  rw [h5]
  refine congrArg x5 ?_
  funext a; apply Fin.ext
  match a with
  | ⟨0, _⟩ => show win0_4.index t (0 : Fin 2) * 64 + 1 * (j 0).val = (j 0).val; omega
  | ⟨1, _⟩ => show win0_4.index t (1 : Fin 2) * 1 + 1 * (j 1).val = (j 1).val; omega

/-- The second bias, read through its one block at index (0), is the bias. -/
theorem gate_block_b2 (V : (c : Dev nD) → (b : Ref sig .tc) → Buf (Elt Ideal) ((c : Thread nD τ).loc b)) (c : Dev nD) (x6 : (⟨S1, .f32⟩ : BufTy).Contents (Elt Ideal)) (h6 : V c main_arg6 = x6) (t : Fin cfg0.N) :
    iblk0 V c 5 t = x6 := by
  obtain ⟨-, -, -, -, -, -, -, -, e0, -⟩ := gate_block_indices t
  funext j
  show V c main_arg6 (((cfg0.win 5).blk t).view.emb j) = x6 j
  rw [h6]
  refine congrArg x6 ?_
  funext a; apply Fin.ext
  match a with
  | ⟨0, _⟩ => show win0_5.index t (0 : Fin 1) * 1 + 1 * (j 0).val = (j 0).val; omega

/-- The point as a block number below 32. -/
abbrev gate_blockOf (t : Fin cfg0.N) : Fin 32 := ⟨t.val, N_0 ▸ t.isLt⟩

/-- Row r, column j of block t of the edge features is row 8192·t + r, column j of the array: the coordinate on an axis is
    block index × block size + 1 × the coordinate inside the block. -/
theorem gate_block_features (V : (c : Dev nD) → (b : Ref sig .tc) → Buf (Elt Ideal) ((c : Thread nD τ).loc b)) (c : Dev nD) (x0 : (⟨S8192x128, .f32⟩ : BufTy).Contents (Elt Ideal)) (x7 : (⟨S2x262144, .i32⟩ : BufTy).Contents (Elt Ideal))
    (h18 : V c main_v18 = val_main_v18 x0 x7) (t : Fin cfg0.N) (r : Fin 8192) (j : Fin 256) :
    iblk0 V c 0 t (ix2 r j) = val_main_v18 x0 x7 (ix2 (edgeOf (gate_blockOf t) r) j) := by
  obtain ⟨e0, e1, -⟩ := gate_block_indices t
  show V c main_v18 (((cfg0.win 0).blk t).view.emb (ix2 r j)) = _
  rw [h18]
  refine congrArg (val_main_v18 x0 x7) ?_
  funext a; apply Fin.ext
  match a with
  | ⟨0, _⟩ => show win0_0.index t (0 : Fin 2) * 8192 + 1 * r.val = 8192 * t.val + r.val; omega
  | ⟨1, _⟩ => show win0_0.index t (1 : Fin 2) * 256 + 1 * j.val = j.val; omega

/-- Entry r of block t of the noise is entry 8192·t + r of the array. -/
theorem gate_block_noise (V : (c : Dev nD) → (b : Ref sig .tc) → Buf (Elt Ideal) ((c : Thread nD τ).loc b)) (c : Dev nD) (x2 : (⟨S262144, .f32⟩ : BufTy).Contents (Elt Ideal))
    (h2 : V c main_arg2 = x2) (t : Fin cfg0.N) (r : Fin 8192) :
    iblk0 V c 1 t (ix1 r) = x2 (ix1 (edgeOf (gate_blockOf t) r)) := by
  obtain ⟨-, -, e0, -⟩ := gate_block_indices t
  show V c main_arg2 (((cfg0.win 1).blk t).view.emb (ix1 r)) = _
  rw [h2]
  refine congrArg x2 ?_
  funext a; apply Fin.ext
  match a with
  | ⟨0, _⟩ => show win0_1.index t (0 : Fin 1) * 8192 + 1 * r.val = 8192 * t.val + r.val; omega

/-- Entry r of block t of the gate array sits at edge 8192·t + r. -/
theorem gate_block_edge (t : Fin cfg0.N) (r : Fin 8192) :
    ((cfg0.win 6).blk t).view.emb (ix1 r) = ix1 (edgeOf (gate_blockOf t) r) := by
  obtain ⟨-, -, -, -, -, -, -, -, -, e0⟩ := gate_block_indices t
  funext a; apply Fin.ext
  match a with
  | ⟨0, _⟩ => show win0_6.index t (0 : Fin 1) * 8192 + 1 * r.val = 8192 * t.val + r.val; omega

/-- The gate the body computes from the blocks at point t, at a block index, is the reference's gate at the edge under it. -/
theorem gate_at_point (V : (c : Dev nD) → (b : Ref sig .tc) → Buf (Elt Ideal) ((c : Thread nD τ).loc b)) (c : Dev nD)
    (x0 : (⟨S8192x128, .f32⟩ : BufTy).Contents (Elt Ideal)) (x2 : (⟨S262144, .f32⟩ : BufTy).Contents (Elt Ideal)) (x3 : (⟨S256x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x262144, .i32⟩ : BufTy).Contents (Elt Ideal))
    (h18 : V c main_v18 = val_main_v18 x0 x7) (h2 : V c main_arg2 = x2) (t : Fin cfg0.N) (y : S8192.Idx) :
    k0_pay1 (F := Ideal) (iblk0 V c 0 t) x3 x4 x5 x6 (iblk0 V c 1 t) y
      = val_main_v39 x0 x2 x3 x4 x5 x6 x7 (((cfg0.win 6).blk t).view.emb y) := by
  obtain ⟨r, rfl⟩ : ∃ r : Fin 8192, y = ix1 r := ⟨y 0, eq_ix1 y⟩
  rw [gate_block_edge]
  exact pay_eq_ref x0 x2 x3 x4 x5 x6 x7 _ _ (gate_blockOf t) (fun r j => gate_block_features V c x0 x7 h18 t r j) (fun r => gate_block_noise V c x2 h2 t r) r

/-- What point t writes back is block t of the reference's gate array: the one store covers the buffer, every load reads a
    whole buffer, and the four constant blocks are the whole weight and bias arrays. -/
theorem gate_flushed (V : (c : Dev nD) → (b : Ref sig .tc) → Buf (Elt Ideal) ((c : Thread nD τ).loc b)) (c : Dev nD)
    (x0 : (⟨S8192x128, .f32⟩ : BufTy).Contents (Elt Ideal)) (x2 : (⟨S262144, .f32⟩ : BufTy).Contents (Elt Ideal)) (x3 : (⟨S256x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x262144, .i32⟩ : BufTy).Contents (Elt Ideal))
    (h18 : V c main_v18 = val_main_v18 x0 x7) (h2 : V c main_arg2 = x2) (h3 : V c main_arg3 = x3) (h4 : V c main_arg4 = x4)
    (h5 : V c main_arg5 = x5) (h6 : V c main_arg6 = x6) (t : Fin cfg0.N) :
    (dat0 V c).flushed 6 t = ((cfg0.win 6).blk t).view.read (Elt Ideal) (val_main_v39 x0 x2 x3 x4 x5 x6 x7) := by
  show (cfg0.win 6).cut (grid0.coords t) ((dat0 V c).after 6 t) = _
  rw [after0_6]
  unfold out0_6
  rw [View.canon_unit_zero gate_zero_off1]
  simp only [View.ld_unit_zero (S := S8192x256) gate_zero_off2, View.ld_unit_zero (S := S8192) gate_zero_off1, View.ld_unit_zero (S := S256x64) gate_zero_off2, View.ld_unit_zero (S := S64) gate_zero_off1, View.ld_unit_zero (S := S64x1) gate_zero_off2, View.ld_unit_zero (S := S1) gate_zero_off1]
  rw [gate_block_W1 V c x3 h3 t, gate_block_b1 V c x4 h4 t, gate_block_W2 V c x5 h5 t, gate_block_b2 V c x6 h6 t]
  funext y
  exact gate_at_point V c x0 x2 x3 x4 x5 x6 x7 h18 h2 t y

/-- An edge is in point t's block iff it lies in [8192·index t, 8192·index t + 8192). -/
theorem gate_mem_block (t : Fin cfg0.N) (i : S262144.Idx) :
    i ∈ ((cfg0.win 6).blk t).view.set ↔ ∀ a : Fin 1, win0_6.index t a * S8192.size a ≤ (i a).val ∧ (i a).val < win0_6.index t a * S8192.size a + S8192.size a := by
  show i ∈ ((View.whole main_v19).slice (win0_6.rect t)).set ↔ _
  rw [View.set_slice_whole, Rect.mem_set_unit]
  exact Iff.rfl

/-- Every edge i lies in the block of point i / 8192, which is written back. -/
theorem gate_cover (i : S262144.Idx) : ∃ t : Fin cfg0.N, (cfg0.win 6).flush t = true ∧ i ∈ ((cfg0.win 6).blk t).view.set := by
  have hi : (i 0).val < 262144 := (i 0).isLt
  refine ⟨⟨(i 0).val / 8192, by rw [show cfg0.N = 32 from N_0]; omega⟩, flush0_6 _, ?_⟩
  rw [gate_mem_block]
  obtain ⟨-, -, -, -, -, -, -, -, -, e0⟩ := gate_block_indices ⟨(i 0).val / 8192, by rw [show cfg0.N = 32 from N_0]; omega⟩
  intro a
  match a with
  | ⟨0, _⟩ =>
    show win0_6.index _ (0 : Fin 1) * 8192 ≤ (i 0).val ∧ (i 0).val < win0_6.index _ (0 : Fin 1) * 8192 + 8192
    rw [e0]
    show (i 0).val / 8192 * 8192 ≤ (i 0).val ∧ (i 0).val < (i 0).val / 8192 * 8192 + 8192
    omega

/-- The 32 written blocks tile the 262144 edges and each is the reference's block, so the gate array ends as the reference's. -/
theorem gate_final (V : (c : Dev nD) → (b : Ref sig .tc) → Buf (Elt Ideal) ((c : Thread nD τ).loc b)) (c : Dev nD)
    (x0 : (⟨S8192x128, .f32⟩ : BufTy).Contents (Elt Ideal)) (x2 : (⟨S262144, .f32⟩ : BufTy).Contents (Elt Ideal)) (x3 : (⟨S256x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x262144, .i32⟩ : BufTy).Contents (Elt Ideal))
    (h18 : V c main_v18 = val_main_v18 x0 x7) (h2 : V c main_arg2 = x2) (h3 : V c main_arg3 = x3) (h4 : V c main_arg4 = x4)
    (h5 : V c main_arg5 = x5) (h6 : V c main_arg6 = x6) :
    (dat0 V c).arrAt 6 cfg0.N = val_main_v39 x0 x2 x3 x4 x5 x6 x7 := by
  exact (dat0 V c).arrAt_eq_of_cover 6 _ (fun t _ => gate_flushed V c x0 x2 x3 x4 x5 x6 x7 h18 h2 h3 h4 h5 h6 t) gate_cover

end Cert.KernelIdeal.Hand

end
-- ==== Proof.KI.Value1.lean ====
/-
  What region 1 leaves in the result: point (i, j) writes back tile (i, j), the 64 tiles cover the 8192 × 8192 matrix,
  and the entry at (a, b) is `adj(a,b) · (0.5 · (M(a,b) + M(b,a)))` of the mask M the region finds — the reference's
  last stage read at (a, b), its transpose read at the swapped index.
-/
import proofs.«170812_j85040352461208_1_alg».proof.Proof.KI.Body1
import proofs.«170812_j85040352461208_1_alg».proof.Proof.RefImports
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.ReferenceIdeal.Read (val_main_v18 val_main_v39 val_main_v54 val_main_v59)

/-- The tile's product read at (p, q): the adjacency entry times half the sum of the mask entry and the
    transposed tile's entry, the latter read at (q, p). -/
theorem sym_payload_apply (v0 v2 v8 : Vec Ideal S1024x1024 .f32) (p q : Fin 1024) :
    k1_pay1 (F := Ideal) v0 v2 v8 (ix2 p q)
      = v8 (ix2 p q) * (Ideal.ofBits .f32 0x3F000000#32 * (v0 (ix2 p q) + v2 (ix2 q p))) := by
  unfold k1_pay1
  simp only [shapeCast_self]
  rw [mulf_apply, mulf_apply, addf_apply, broadcast_apply,
    transpose_apply [1, 0] v2 transposes_S1024x1024_p1_0_S1024x1024 (ix2 p q) (ix2 q p) (fun b => match b with
      | ⟨0, _⟩ => rfl
      | ⟨1, _⟩ => rfl)]
  rfl

/-- The zero offsets, spelt as the constant function. -/
theorem sym_zero_offsets : (![0, 0] : Fin 2 → Nat) = fun _ => 0 := funext fun a => by fin_cases a <;> rfl

/-- The four index maps over the 64 points: windows 0 and 1 sit on the output's tile, window 2 on the tile with the
    two block indices exchanged, and the output's block indices stay below 8. -/
theorem sym_tile_indices : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = win1_3.index t (1 : Fin 2)
    ∧ win1_2.index t (0 : Fin 2) = win1_3.index t (1 : Fin 2) ∧ win1_2.index t (1 : Fin 2) = win1_3.index t (0 : Fin 2)
    ∧ win1_3.index t (0 : Fin 2) ≤ 7 ∧ win1_3.index t (1 : Fin 2) ≤ 7 :=
  (by decide +kernel : ∀ t : Fin grid1.N, _)

/-- Every tile of the 8 × 8 tiling is some point's output tile. -/
theorem sym_tile_onto : ∀ (q0 q1 : Fin 8), ∃ t : Fin cfg1.N, win1_3.index t = ![q0.val, q1.val] :=
  (by decide +kernel : ∀ (q0 q1 : Fin 8), ∃ t : Fin grid1.N, win1_3.index t = ![q0.val, q1.val])

/-- What point t writes back is tile t of the reference's last stage: at (p, q) of the tile both are
    adj(a, b) · (0.5 · (M(a, b) + M(b, a))) at the array position (a, b) of that entry. -/
theorem sym_flushed_eq (V : (c : Dev nD) → (b : Ref sig .tc) → Buf (Elt Ideal) ((c : Thread nD τ).loc b)) (c : Dev nD)
    (x0 : (⟨S8192x128, .f32⟩ : BufTy).Contents (Elt Ideal)) (x1 : (⟨S8192x8192, .f32⟩ : BufTy).Contents (Elt Ideal)) (x2 : (⟨S262144, .f32⟩ : BufTy).Contents (Elt Ideal)) (x3 : (⟨S256x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x262144, .i32⟩ : BufTy).Contents (Elt Ideal))
    (h1 : V c main_arg1 = x1) (h34 : V c main_v34 = val_main_v54 x0 x2 x3 x4 x5 x6 x7) (t : Fin cfg1.N) :
    (dat1 V c).flushed 3 t = ((cfg1.win 3).blk t).view.read (Elt Ideal) (val_main_v59 x0 x1 x2 x3 x4 x5 x6 x7) := by
  show (cfg1.win 3).cut (grid1.coords t) ((dat1 V c).after 3 t) = _
  rw [after1_3]
  unfold out1_3
  rw [View.canon_unit_zero sym_zero_offsets]
  simp only [View.ld_unit_zero (S := S1024x1024) sym_zero_offsets]
  obtain ⟨e00, e01, e10, e11, e20, e21, -, -⟩ := sym_tile_indices t
  refine funext fun (y : S1024x1024.Idx) => ?_
  obtain ⟨p, q, rfl⟩ : ∃ (p q : Fin 1024), y = ix2 p q := ⟨y 0, y 1, eq_ix2 y⟩
  show k1_pay1 (F := Ideal) (iblk1 V c 1 t) (iblk1 V c 2 t) (iblk1 V c 0 t) (ix2 p q)
    = val_main_v59 x0 x1 x2 x3 x4 x5 x6 x7 (((cfg1.win 3).blk t).view.emb (ix2 p q))
  have hadj : ((cfg1.win 0).blk t).view.emb (ix2 p q) = ((cfg1.win 3).blk t).view.emb (ix2 p q) := by
    funext a; apply Fin.ext
    match a with
    | ⟨0, _⟩ => show win1_0.index t (0 : Fin 2) * 1024 + 1 * p.val = win1_3.index t (0 : Fin 2) * 1024 + 1 * p.val; omega
    | ⟨1, _⟩ => show win1_0.index t (1 : Fin 2) * 1024 + 1 * q.val = win1_3.index t (1 : Fin 2) * 1024 + 1 * q.val; omega
  have hmask : ((cfg1.win 1).blk t).view.emb (ix2 p q) = ((cfg1.win 3).blk t).view.emb (ix2 p q) := by
    funext a; apply Fin.ext
    match a with
    | ⟨0, _⟩ => show win1_1.index t (0 : Fin 2) * 1024 + 1 * p.val = win1_3.index t (0 : Fin 2) * 1024 + 1 * p.val; omega
    | ⟨1, _⟩ => show win1_1.index t (1 : Fin 2) * 1024 + 1 * q.val = win1_3.index t (1 : Fin 2) * 1024 + 1 * q.val; omega
  have hswap : ((cfg1.win 2).blk t).view.emb (ix2 q p)
      = Cert.ReferenceIdeal.Read.idx_main_v55 (((cfg1.win 3).blk t).view.emb (ix2 p q)) := by
    funext a; apply Fin.ext
    match a with
    | ⟨0, _⟩ => show win1_2.index t (0 : Fin 2) * 1024 + 1 * q.val = win1_3.index t (1 : Fin 2) * 1024 + 1 * q.val; omega
    | ⟨1, _⟩ => show win1_2.index t (1 : Fin 2) * 1024 + 1 * p.val = win1_3.index t (0 : Fin 2) * 1024 + 1 * p.val; omega
  have radj : iblk1 V c 0 t (ix2 p q) = x1 (((cfg1.win 3).blk t).view.emb (ix2 p q)) := by
    show V c main_arg1 (((cfg1.win 0).blk t).view.emb (ix2 p q)) = _
    rw [hadj, h1]
  have rmask : iblk1 V c 1 t (ix2 p q) = val_main_v54 x0 x2 x3 x4 x5 x6 x7 (((cfg1.win 3).blk t).view.emb (ix2 p q)) := by
    show V c main_v34 (((cfg1.win 1).blk t).view.emb (ix2 p q)) = _
    rw [hmask, h34]
  have rswap : iblk1 V c 2 t (ix2 q p)
      = val_main_v54 x0 x2 x3 x4 x5 x6 x7 (Cert.ReferenceIdeal.Read.idx_main_v55 (((cfg1.win 3).blk t).view.emb (ix2 p q))) := by
    show V c main_v34 (((cfg1.win 2).blk t).view.emb (ix2 q p)) = _
    rw [hswap, h34]
  rw [sym_payload_apply, radj, rmask, rswap]
  rw [Cert.ReferenceIdeal.Read.val_main_v59_apply, Cert.ReferenceIdeal.Read.val_main_v58_apply,
    Cert.ReferenceIdeal.Read.val_main_v57_apply, Cert.ReferenceIdeal.Read.val_main_cst_9_apply,
    Cert.ReferenceIdeal.Read.val_main_v56_apply, Cert.ReferenceIdeal.Read.val_main_v55_apply]
  rfl

/-- An entry of the matrix is in point t's output tile iff each coordinate is in the tile's range on its axis. -/
theorem sym_mem_tile (t : Fin cfg1.N) (i : S8192x8192.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v35).slice (win1_3.rect t)).set ↔ _
  rw [View.set_slice_whole, Rect.mem_set_unit]
  exact Iff.rfl

/-- The 64 tiles cover the matrix: entry (a, b) is in the tile (a / 1024, b / 1024). -/
theorem sym_tiles_cover (i : S8192x8192.Idx) :
    ∃ t : Fin cfg1.N, (cfg1.win 3).flush t = true ∧ i ∈ ((cfg1.win 3).blk t).view.set := by
  have hi0 : (i 0).val < 8192 := (i 0).isLt
  have hi1 : (i 1).val < 8192 := (i 1).isLt
  obtain ⟨t, ht⟩ := sym_tile_onto ⟨(i 0).val / 1024, by omega⟩ ⟨(i 1).val / 1024, by omega⟩
  have q0 : win1_3.index t (0 : Fin 2) = (i 0).val / 1024 := congrFun ht 0
  have q1 : win1_3.index t (1 : Fin 2) = (i 1).val / 1024 := congrFun ht 1
  refine ⟨t, flush1_3 t, ?_⟩
  rw [sym_mem_tile]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

theorem sym_final (V : (c : Dev nD) → (b : Ref sig .tc) → Buf (Elt Ideal) ((c : Thread nD τ).loc b)) (c : Dev nD)
    (x0 : (⟨S8192x128, .f32⟩ : BufTy).Contents (Elt Ideal)) (x1 : (⟨S8192x8192, .f32⟩ : BufTy).Contents (Elt Ideal)) (x2 : (⟨S262144, .f32⟩ : BufTy).Contents (Elt Ideal)) (x3 : (⟨S256x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x262144, .i32⟩ : BufTy).Contents (Elt Ideal))
    (h1 : V c main_arg1 = x1) (h34 : V c main_v34 = val_main_v54 x0 x2 x3 x4 x5 x6 x7) :
    (dat1 V c).arrAt 3 cfg1.N = val_main_v59 x0 x1 x2 x3 x4 x5 x6 x7 := by
  exact (dat1 V c).arrAt_eq_of_cover 3 (val_main_v59 x0 x1 x2 x3 x4 x5 x6 x7)
    (fun t _ => sym_flushed_eq V c x0 x1 x2 x3 x4 x5 x6 x7 h1 h34 t) sym_tiles_cover

end Cert.KernelIdeal.Hand

end
-- ==== Proof.KI.HostVals.lean ====
/-
  The host side of the kernel's run. The first stretch of host operations builds the edge features (the two row
  gathers of the embedding table, joined) exactly as the reference does; the second scatter-adds region 0's gates at
  the (row, column) pairs into a zero matrix, again the reference's own operations on the same index chain. So the
  mask region 1 reads is the reference's scattered mask once region 0's output is the reference's gate, and — at the
  ideal instance, where the two regions' values are known — the result region 1 leaves is the reference's last stage.
-/
import proofs.«170812_j85040352461208_1_alg».proof.Proof.KI.Run
import proofs.«170812_j85040352461208_1_alg».proof.Proof.KI.Value0
import proofs.«170812_j85040352461208_1_alg».proof.Proof.KI.Value1
import proofs.«170812_j85040352461208_1_alg».proof.Proof.RefImports
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem
open Cert.ReferenceIdeal.Read (val_main_v1 val_main_v3 val_main_v18 val_main_v39 val_main_v54 val_main_v59)

/-! ## The host stretches, for any float instance: the same operations as the reference's -/

section Host
variable {F : FTy → Type} [FloatOps F]
variable (m : (ℓ : Loc nD τ sig) → Buf (Elt F) ℓ)

/-! ### Region 0's entry: the arguments as launched, the edge features the reference's -/

theorem VB1_arg2 (c : Dev nD) : VB1 m c main_arg2 = m ((c : Thread nD τ).loc main_arg2) :=
  StableHlo.after_of_writes_sub hostOps0 _ hostOps0_writes (by decide : main_arg2 ∉ hostOps0_W)
theorem VB1_arg3 (c : Dev nD) : VB1 m c main_arg3 = m ((c : Thread nD τ).loc main_arg3) :=
  StableHlo.after_of_writes_sub hostOps0 _ hostOps0_writes (by decide : main_arg3 ∉ hostOps0_W)
theorem VB1_arg4 (c : Dev nD) : VB1 m c main_arg4 = m ((c : Thread nD τ).loc main_arg4) :=
  StableHlo.after_of_writes_sub hostOps0 _ hostOps0_writes (by decide : main_arg4 ∉ hostOps0_W)
theorem VB1_arg5 (c : Dev nD) : VB1 m c main_arg5 = m ((c : Thread nD τ).loc main_arg5) :=
  StableHlo.after_of_writes_sub hostOps0 _ hostOps0_writes (by decide : main_arg5 ∉ hostOps0_W)
theorem VB1_arg6 (c : Dev nD) : VB1 m c main_arg6 = m ((c : Thread nD τ).loc main_arg6) :=
  StableHlo.after_of_writes_sub hostOps0 _ hostOps0_writes (by decide : main_arg6 ∉ hostOps0_W)

set_option maxHeartbeats 4000000 in
/-- The joined gathers are the reference's stage, operation for operation. -/
theorem VB1_v18 (c : Dev nD) : VB1 m c main_v18 = val_main_v18 (F := F) (m ((c : Thread nD τ).loc main_arg0)) (m ((c : Thread nD τ).loc main_arg7)) := by
  show StableHlo.after hostOps0 (fun b => m (c, b)) (Proc.devRef .tc main_v18) = _
  after_results
  rfl

/-! ### Region 1's entry: the adjacency matrix as launched, the mask the reference's scatter of region 0's output -/

/-- The two index rows, computed before region 0 and untouched by it. -/
theorem B2_v1 (c : Dev nD) : B2 m c (Proc.devRef .tc main_v1) = val_main_v1 (F := F) (m ((c : Thread nD τ).loc main_arg7)) :=
  (B2_of_ne m c main_v1 (by decide)).trans (by
    show StableHlo.after hostOps0 (fun b => m (c, b)) (Proc.devRef .tc main_v1) = _
    after_results
    rfl)
theorem B2_v3 (c : Dev nD) : B2 m c (Proc.devRef .tc main_v3) = val_main_v3 (F := F) (m ((c : Thread nD τ).loc main_arg7)) :=
  (B2_of_ne m c main_v3 (by decide)).trans (by
    show StableHlo.after hostOps0 (fun b => m (c, b)) (Proc.devRef .tc main_v3) = _
    after_results
    rfl)

theorem VB3_arg1 (c : Dev nD) : VB3 m c main_arg1 = m ((c : Thread nD τ).loc main_arg1) :=
  calc B3 m c (Proc.devRef .tc main_arg1)
    _ = B2 m c (Proc.devRef .tc main_arg1) := StableHlo.after_of_writes_sub hostOps1 _ hostOps1_writes (by decide : main_arg1 ∉ hostOps1_W)
    _ = B1 m c (Proc.devRef .tc main_arg1) := B2_of_ne m c main_arg1 (by decide)
    _ = B0 m c (Proc.devRef .tc main_arg1) := StableHlo.after_of_writes_sub hostOps0 _ hostOps0_writes (by decide : main_arg1 ∉ hostOps0_W)
    _ = m ((c : Thread nD τ).loc main_arg1) := rfl

set_option maxHeartbeats 4000000 in
/-- If region 0 leaves the reference's gate, the scatter-add of it is the reference's scattered mask. -/
theorem VB3_v34 (c : Dev nD) (hg : B2 m c (Proc.devRef .tc main_v19) = val_main_v39 (F := F) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    VB3 m c main_v34 = val_main_v54 (F := F) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (B2 m c) (Proc.devRef .tc main_v34) = _
  after_results
  rw [hg, B2_v1 m c, B2_v3 m c]
  rfl

end Host

/-! ## At the ideal instance: the two regions' values -/

section AtIdeal
variable (m : (ℓ : Loc nD τ sig) → Buf (Elt Ideal) ℓ)

/-- Region 0 leaves the reference's gate in its output array. -/
theorem gate_at_exit (c : Dev nD) : B2 m c (Proc.devRef .tc main_v19) = val_main_v39 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (B2_arr m c 6).trans (gate_final (VB1 m) c _ _ _ _ _ _ _ (VB1_v18 m c) (VB1_arg2 m c) (VB1_arg3 m c) (VB1_arg4 m c) (VB1_arg5 m c) (VB1_arg6 m c))

/-- What region 1 leaves in the result array is the reference's last stage of the launch arguments. -/
theorem res1_eq (c : Dev nD) : res1 m c = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  sym_final (VB3 m) c _ _ _ _ _ _ _ _ (VB3_arg1 m c) (VB3_v34 m c (gate_at_exit m c))

end AtIdeal

end Cert.KernelIdeal.Hand

end
-- ==== Proof.lean ====
/-
  The certificate of the edge-gate / symmetrised-mask kernel against its jnp reference.

  Both programs compute, from an embedding table, an adjacency matrix, per-edge noise, two weight matrices with their
  biases and the (row, column) pairs of 262144 edges over 8192 nodes:
    h      = the two gathered embedding rows of every edge, joined (262144 × 256);
    logit  = (relu (h·W1 + b1))·W2 + b2, one number per edge;
    gate   = 1 / (1 + exp (−(log n − log1p (−n) + logit)));
    M      = the gates scatter-added at their (row, column) positions into a zero 8192 × 8192 matrix;
    result = adj · (0.5 · (M + transpose M)).
  The reference does all of it with host operations. The kernel does the gather and the scatter-add with the same host
  operations, and two kernel regions in between: one computes the gates in 32 blocks of 8192 edges (its two matrix
  products into zero accumulators, its `0 − n` for `−n`, its logistic function for the quotient), the other the last
  line in 64 tiles of 1024 × 1024, reading the mask twice — tile (i, j) and, transposed in place, tile (j, i).
  Over the extended reals the block products are the reference's sums restricted to the block's rows, `0 − n = −n`,
  the logistic function is `1 / (1 + exp (−x))`, and a tile of `M + transpose M` is tile (i, j) of M plus the transpose
  of tile (j, i): no law beyond these, and none that needs the inputs finite. So the precondition is never opened.

  Frames. Each kernel program runs as host stretch, region, host stretch, region over the core's unscoped buffers;
  the second region's two mask windows share one buffer, held at the two halves of its full share. Every argument
  ends as launched because no item writes one. The reference has no kernel: its frame is its run with the result
  dropped. The idealization rewrote nothing, so `preserves` is trivial.
-/
import proofs.«170812_j85040352461208_1_alg».proof.Defs
import proofs.«170812_j85040352461208_1_alg».proof.Proof.Gen.Kernel
import proofs.«170812_j85040352461208_1_alg».proof.Proof.Gen.KernelIdeal
import proofs.«170812_j85040352461208_1_alg».proof.Proof.Gen.ReferenceIdeal
import proofs.«170812_j85040352461208_1_alg».proof.Proof.Gen.Pre_finite_inputs
import proofs.«170812_j85040352461208_1_alg».proof.Proof.K.Run
import proofs.«170812_j85040352461208_1_alg».proof.Proof.KI.Run
import proofs.«170812_j85040352461208_1_alg».proof.Proof.KI.HostVals
import proofs.«170812_j85040352461208_1_alg».proof.Proof.RefImports
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame m ρ

theorem frame_pi : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance the kernel's result array ends at what its second region leaves, which is the reference's
    last stage of the launch arguments; the reference's ends at that stage of its own arguments, which agree. -/
theorem algebraic : Cert.algebraic_KernelIdeal_ReferenceIdeal := by
  intro m ρ m' ρ' _ hagree
  refine ⟨fun c => Cert.KernelIdeal.Hand.res1 m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.KernelIdeal.Hand.res1_eq m c).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
